-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "inv_100000000000000000000" .f32 0x1E3CE508#32 ((1 / 100000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4096x1024 .f32) (main_arg1 : FVec F S4096x4096 .f32) (main_arg2 : FVec F S1024x1024 .f32) (main_arg3 : FVec F S1024x1024 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S1024x3072 : Shape := ⟨2, ![1024, 3072]⟩
abbrev S512x1024 : Shape := ⟨2, ![512, 1024]⟩
abbrev S512x3072 : Shape := ⟨2, ![512, 3072]⟩
abbrev S1024x512 : Shape := ⟨2, ![1024, 512]⟩
abbrev S1024x1 : Shape := ⟨2, ![1024, 1]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x3072, .f32⟩
  | .hbm, ⟨6, _⟩ => ⟨S1024x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x512, .f32⟩
  | .local _ .vmem, ⟨16, _⟩ => ⟨S1024x512, .f32⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_27 : BitVec 32 := 0#32
  let v49 : BitVec 1 := Scalar.cmpi .ne v48 c0_i32_27
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .f32 = 32 ∨ (Rect.block (s := S4096x4096) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x1024.size a
  hwx1_4 : ∀ i : grid1.Coords, EltTy.bits .f32 = 32 ∨ (Rect.block (s := S4096x1024) S1024x1024.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x1024 : Shape := ⟨2, ![1024, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KR0Data.lean ====
/-
  The first pallas_call: the projection of a block of 512 rows of x onto the 3072 columns of [Wq | Wk | Wv],
  cut into its three 1024-column thirds. What the call is handed and what it leaves, as the launch theorems
  take it: each window's block at a grid point read off the array the region finds, and each output window's
  staging buffer after the body as one third of the product of the two input blocks.
-/
import proofs.«400698_j61830349193486_3_alg».proof.Proof.Gen.Kernel.Launch
import proofs.«400698_j61830349193486_3_alg».proof.Proof.Gen.Kernel.Skeleton
import proofs.«400698_j61830349193486_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q third of the product of a row block with the concatenated weights. -/
def out0_2 (x0 : Vec F S512x1024 .f32) (x1 : Vec F S1024x3072 .bf16) : Vec F S512x1024 .bf16 := k0_pay2 x0 x1
/-- The k third. -/
def out0_3 (x0 : Vec F S512x1024 .f32) (x1 : Vec F S1024x3072 .bf16) : Vec F S512x1024 .bf16 := k0_pay3 x0 x1
/-- The v third. -/
def out0_4 (x0 : Vec F S512x1024 .f32) (x1 : Vec F S1024x3072 .bf16) : Vec F S512x1024 .bf16 := k0_pay4 x0 x1

/-- The proof data of the first call on core `c`: the arrays as the region finds them; after the body at point `t`
    the two inputs' buffers at their blocks and the three outputs' at the three thirds of the product of those
    blocks; nothing kept between points beyond what the launch lends (scratch of the other call, the generator
    register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Region0

end Cert.Kernel.Hand

end
-- ==== Proof.KR0Body.lean ====
/-
  The first pallas_call's body at a grid point: it loads the two input blocks, multiplies, and stores the three
  thirds of the product into the three output blocks; nothing else is touched.
-/
import proofs.«400698_j61830349193486_3_alg».proof.Proof.Gen.Kernel.Launch
import proofs.«400698_j61830349193486_3_alg».proof.Proof.Gen.Kernel.Skeleton
import proofs.«400698_j61830349193486_3_alg».proof.Proof.Gen.Kernel.Points
import proofs.«400698_j61830349193486_3_alg».proof.Proof.KR0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The x window's staging buffer holds its block at every point: fetched there. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The weight window's staging buffer holds its block at every point, fetched there or not: its block index never moves. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The two zero offsets, as the constant function. -/
theorem zeros2 : (![0, 0] : Fin 2 → ℕ) = fun _ => 0 := by
  funext a
  match a with
  | ⟨0, _⟩ => rfl
  | ⟨1, _⟩ => rfl

/-- A load through the whole-shape rectangle at zero offsets reads the view's contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit (s := S) off S.size inb).toLoadRect f = v.read (Elt F) f :=
  (View.readAt_eq_ld v f (Rect.unit (s := S) off S.size inb)).trans (View.ld_unit_zero (S := S) hz inb _)

/-- One store through the whole-shape rectangle at zero offsets leaves its payload, whatever was there. -/
theorem read_writes_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f _ (fun y => ⟨_, List.mem_singleton_self _, View.mem_set_unit_zero (S := S) hz inb y⟩)).trans
    (View.canon_unit_zero (S := S) hz inb w)

set_option maxHeartbeats 1000000 in
/-- The kernel body on whole staging memrefs, the two inputs' at read contents and the three outputs' at anything, runs
    to the continuation holding the inputs' as they were and each output's at its third of the product. -/
theorem sound_kernel0 (c : Dev nD) (E : Set ℕ) (i : grid0.Coords)
    (arg0 : Memref sig .tc .vmem S512x1024 .f32) (harg0 : arg0.IsWhole)
    (arg1 : Memref sig .tc .vmem S1024x3072 .bf16) (harg1 : arg1.IsWhole)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (x0 : Vec F S512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E (cc0__qkv_matmul_kernel i arg0 harg0 arg1 harg1 arg2 harg2 arg3 harg3 arg4 harg4) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ zeros2, readAt_whole _ _ zeros2, readAt_whole _ _ zeros2]
    rfl
  isplitl [H3]
  · iexists _; isplitr
    swap; · iexact H3
    ipureintro
    rw [read_writes_whole _ _ zeros2, readAt_whole _ _ zeros2, readAt_whole _ _ zeros2]
    rfl
  iexists _; isplitr
  swap; · iexact H4
  ipureintro
  rw [read_writes_whole _ _ zeros2, readAt_whole _ _ zeros2, readAt_whole _ _ zeros2]
  rfl

/-- What the body is called with at point `t`: the invariant, the core's debts, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of the first call, at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KR1Data.lean ====
/-
  The second pallas_call: attention of a block of 1024 query rows against the keys and values, 512 at a time,
  on the grid (query block, key block) = 4 × 8 run key block fastest. Between grid points the call keeps three
  scratch arrays: per query row the running maximum of the scores seen so far, the running sum of their
  exponentials against that maximum, and the running exponential-weighted sum of the value rows. At key block 0
  the three are reset; at every point they take in one block of 512 scores; at key block 7 the weighted sum
  divided by the (floored) sum of weights is stored into the output block, which is written back there and
  nowhere else. Here: the three arrays after each grid point as a recursion on the point, and the proof data
  of the call as the launch theorems take it.
-/
import proofs.«400698_j61830349193486_3_alg».proof.Proof.Gen.Kernel.Launch
import proofs.«400698_j61830349193486_3_alg».proof.Proof.Gen.Kernel.Skeleton
import proofs.«400698_j61830349193486_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried arrays: running maximum, running sum of weights, running weighted sum of value rows. -/
abbrev St1 (F : FTy → Type) [FloatOps F] : Type := Vec F S1024x1 .f32 × Vec F S1024x1 .f32 × Vec F S1024x1024 .f32

/-- What key block 0 resets them to. -/
def init1 : St1 F := (k1_pay5 (F := F), k1_pay6 (F := F), k1_pay7 (F := F))

/-- One grid point: the carried arrays after taking in the scores of a query block `q` against a key block `k`
    under the mask block `mk`, with value block `v`. -/
def step1 (q : Vec F S1024x1024 .bf16) (k : Vec F S512x1024 .bf16) (v : Vec F S512x1024 .bf16) (mk : Vec F S1024x512 .f32)
    (s : St1 F) : St1 F :=
  (k1_pay3 (k1_pay10 q k mk s.1),
   k1_pay1 (k1_pay13 q k mk s.1 s.1 s.2.1),
   k1_pay2 (k1_pay8 v) (k1_pay11 q k mk s.1 s.1) (k1_pay12 q k mk s.1) s.2.2)

/-- The output block from the carried arrays: the weighted sum over the floored sum of weights. -/
def out1 (s : St1 F) : Vec F S1024x1024 .f32 := k1_pay4 s.2.1 s.2.2

/-- The carried arrays after grid point `n`: one step from the reset values when `n` is at key block 0, else from
    what the point before left. -/
def stAt1 (c : Dev nD) : (n : ℕ) → n < cfg1.N → St1 F
  | 0, hn => step1 (iblk1 V c 0 ⟨0, hn⟩) (iblk1 V c 1 ⟨0, hn⟩) (iblk1 V c 2 ⟨0, hn⟩) (iblk1 V c 3 ⟨0, hn⟩) init1
  | n + 1, hn => step1 (iblk1 V c 0 ⟨n + 1, hn⟩) (iblk1 V c 1 ⟨n + 1, hn⟩) (iblk1 V c 2 ⟨n + 1, hn⟩) (iblk1 V c 3 ⟨n + 1, hn⟩)
      (if (n + 1) % 8 = 0 then init1 else stAt1 c n (Nat.lt_of_succ_lt hn))

theorem stAt1_reset (c : Dev nD) (t : Fin cfg1.N) (h : t.val % 8 = 0) :
    stAt1 V c t.val t.isLt = step1 (iblk1 V c 0 t) (iblk1 V c 1 t) (iblk1 V c 2 t) (iblk1 V c 3 t) init1 := by
  obtain ⟨n, hn⟩ := t
  cases n with
  | zero => rfl
  | succ n => exact congrArg _ (if_pos h)

theorem stAt1_carry (c : Dev nD) (t : Fin cfg1.N) (h : ¬ t.val % 8 = 0) :
    stAt1 V c t.val t.isLt = step1 (iblk1 V c 0 t) (iblk1 V c 1 t) (iblk1 V c 2 t) (iblk1 V c 3 t)
      (stAt1 V c (t.val - 1) (Nat.lt_of_le_of_lt (Nat.sub_le _ _) t.isLt)) := by
  obtain ⟨n, hn⟩ := t
  cases n with
  | zero => exact absurd (Nat.zero_mod _) h
  | succ n => exact congrArg _ (if_neg h)

/-- The call's scratch operands as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- A scoped buffer of the core held whole at contents nobody names. -/
abbrev anyAt (c : Dev nD) (r : Ref sig .tc) : sProp 𝕄 :=
  iprop(∃ f : Buf (Elt F) ((c : Thread nD τ).loc r), ((c : Thread nD τ).loc r) ↦{fullShare} f)

/-- What the call keeps between grid points once a point has run: the other call's staging buffers at anything,
    its own three scratch arrays at the carried arrays `s`, and the generator register at some state. -/
def carried1 (c : Dev nD) (s : St1 F) : sProp 𝕄 :=
  iprop((anyAt (F := F) c cc0_stg0_0 ∗ anyAt (F := F) c cc0_stg0_1 ∗ anyAt (F := F) c cc0_stg1_0 ∗ anyAt (F := F) c cc0_stg2_0
      ∗ anyAt (F := F) c cc0_stg2_1 ∗ anyAt (F := F) c cc0_stg3_0 ∗ anyAt (F := F) c cc0_stg3_1 ∗ anyAt (F := F) c cc0_stg4_0
      ∗ anyAt (F := F) c cc0_stg4_1
      ∗ owns (c : Thread nD τ) scM1_0 fullShare s.1 ∗ owns (c : Thread nD τ) scM1_1 fullShare s.2.1
      ∗ owns (c : Thread nD τ) scM1_2 fullShare s.2.2)
    ∗ ∃ r, prngReg c r)

/-- The region invariant before position `n`: before the first point what the launch lends (every scratch at
    anything); afterwards the three scratch arrays at what the point before left. -/
def PhiS1 (c : Dev nD) : (n : ℕ) → n ≤ cfg1.N → sProp 𝕄
  | 0, _ => Pipeline.ΦA spec1 c
  | n + 1, hn => carried1 c (stAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = carried1 c (stAt1 V c n hn) := rfl

theorem PhiS1_pos (c : Dev nD) (n : ℕ) (h : n ≤ cfg1.N) (hz : n ≠ 0) :
    PhiS1 V c n h = carried1 c (stAt1 V c (n - 1) (by omega)) := by
  cases n with
  | zero => exact absurd rfl hz
  | succ n => rfl

/-- The proof data of the second call on core `c`: the arrays as the region finds them; after the body at point `t`
    the four inputs' buffers at their blocks and the output's at the quotient of the carried arrays after `t`
    (consulted only at key block 7, where the body stores it and the pipeline writes it back); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (stAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (stAt1 V c t.val t.isLt) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Region1

end Cert.Kernel.Hand

end
-- ==== Proof.KR1Body.lean ====
/-
  The second pallas_call's body at a grid point, by the position of the point in its row of eight key blocks:
  first (the carried arrays are reset, then one block is taken in), middle (one block is taken in), last (one
  block is taken in, then the quotient is stored into the output block).
-/
import proofs.«400698_j61830349193486_3_alg».proof.Proof.Gen.Kernel.Launch
import proofs.«400698_j61830349193486_3_alg».proof.Proof.Gen.Kernel.Skeleton
import proofs.«400698_j61830349193486_3_alg».proof.Proof.Gen.Kernel.Points
import proofs.«400698_j61830349193486_3_alg».proof.Proof.KR1Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test as the body computes it from the key-block coordinate: it holds exactly at key block 0. -/
abbrev cond1_0 (i : grid1.Coords) : Prop := (Scalar.cmpi .ne (Scalar.extui (Scalar.cmpi .eq (BitVec.ofNat 32 (i 1).val) 0#32)) 0#32) = 1#1
/-- The second conditional's test: it holds exactly at key block 7. -/
abbrev cond1_1 (i : grid1.Coords) : Prop := k1_cond2 i = 1#1

set_option maxHeartbeats 4000000 in
/-- The body at key block 0: whatever the three carried arrays held, they are reset and then take in the block, so
    they come out one step from the reset values; the inputs' and the output's buffers are left as found. -/
theorem run1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : cond1_0 i) (hc1 : ¬ cond1_1 i)
    (q : Vec F S1024x1024 .bf16) (k : Vec F S512x1024 .bf16) (v : Vec F S512x1024 .bf16) (mk : Vec F S1024x512 .f32)
    (d : Vec F S1024x1024 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ (∃ x, owns (c : Thread nD τ) arg7 fullShare x) ∗ (∃ x, owns (c : Thread nD τ) arg8 fullShare x) ∗ (∃ x, owns (c : Thread nD τ) arg9 fullShare x)
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
            ∗ owns (c : Thread nD τ) arg7 fullShare (step1 q k v mk init1).1 ∗ owns (c : Thread nD τ) arg8 fullShare (step1 q k v mk init1).2.1
            ∗ owns (c : Thread nD τ) arg9 fullShare (step1 q k v mk init1).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%x7, %f7, -, H7⟩, ⟨%x8, %f8, -, H8⟩, ⟨%x9, %f9, -, H9⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    refine (View.read_writes_eq_canon _ _ _ (fun y => ⟨_, List.mem_cons.mpr (Or.inl rfl), View.mem_set_unit_zero hzR inb_S1024x1_S1024x1_0_0 y⟩)).trans ?_
    refine (View.canon_cons_unit_zero hzR _ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    sl_unfold_words
    refine (View.read_writes_eq_canon _ _ _ (fun y => ⟨_, List.mem_cons.mpr (Or.inl rfl), View.mem_set_unit_zero hzR inb_S1024x1_S1024x1_0_0 y⟩)).trans ?_
    refine (View.canon_cons_unit_zero hzR _ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  sl_unfold_words
  refine (View.read_writes_eq_canon _ _ _ (fun y => ⟨_, List.mem_cons.mpr (Or.inl rfl), View.mem_set_unit_zero hzQ inb_S1024x1024_S1024x1024_0_0 y⟩)).trans ?_
  refine (View.canon_cons_unit_zero hzQ _ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

set_option maxHeartbeats 4000000 in
/-- The body at a key block that is neither 0 nor 7: the three carried arrays take in the block; the inputs' and the
    output's buffers are left as found. -/
theorem run1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : ¬ cond1_0 i) (hc1 : ¬ cond1_1 i)
    (q : Vec F S1024x1024 .bf16) (k : Vec F S512x1024 .bf16) (v : Vec F S512x1024 .bf16) (mk : Vec F S1024x512 .f32)
    (d : Vec F S1024x1024 .f32) (s : St1 F) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ owns (c : Thread nD τ) arg7 fullShare s.1 ∗ owns (c : Thread nD τ) arg8 fullShare s.2.1 ∗ owns (c : Thread nD τ) arg9 fullShare s.2.2
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
            ∗ owns (c : Thread nD τ) arg7 fullShare (step1 q k v mk s).1 ∗ owns (c : Thread nD τ) arg8 fullShare (step1 q k v mk s).2.1
            ∗ owns (c : Thread nD τ) arg9 fullShare (step1 q k v mk s).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  refine (View.read_writes_eq_canon _ _ _ (fun y => ⟨_, List.mem_singleton_self _, View.mem_set_unit_zero hzQ inb_S1024x1024_S1024x1024_0_0 y⟩)).trans ?_
  refine (View.canon_unit_zero hzQ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

set_option maxHeartbeats 4000000 in
/-- The body at key block 7: the three carried arrays take in the block, and the quotient of the new weighted sum by
    the new (floored) sum of weights is stored over the whole output block. -/
theorem run1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : ¬ cond1_0 i) (hc1 : cond1_1 i)
    (q : Vec F S1024x1024 .bf16) (k : Vec F S512x1024 .bf16) (v : Vec F S512x1024 .bf16) (mk : Vec F S1024x512 .f32)
    (d : Vec F S1024x1024 .f32) (s : St1 F) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ owns (c : Thread nD τ) arg7 fullShare s.1 ∗ owns (c : Thread nD τ) arg8 fullShare s.2.1 ∗ owns (c : Thread nD τ) arg9 fullShare s.2.2
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare (out1 (step1 q k v mk s))
            ∗ owns (c : Thread nD τ) arg7 fullShare (step1 q k v mk s).1 ∗ owns (c : Thread nD τ) arg8 fullShare (step1 q k v mk s).2.1
            ∗ owns (c : Thread nD τ) arg9 fullShare (step1 q k v mk s).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ (fun y => ⟨_, List.mem_singleton_self _, View.mem_set_unit_zero hzQ inb_S1024x1024_S1024x1024_0_0 y⟩)).trans ?_
    refine (View.canon_unit_zero hzQ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H7]
  · iexists _; isplitr
    swap; · iexact H7
    ipureintro
    sl_unfold_words
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    sl_unfold_words
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  sl_unfold_words
  refine (View.read_writes_eq_canon _ _ _ (fun y => ⟨_, List.mem_singleton_self _, View.mem_set_unit_zero hzQ inb_S1024x1024_S1024x1024_0_0 y⟩)).trans ?_
  refine (View.canon_unit_zero hzQ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

section Region1

variable (V : (c : Dev nD) → (b : Ref sig .tc) → Buf (Elt F) ((c : Thread nD τ).loc b))

/-- Over the grid of 4 × 8 points run key block fastest, the first test holds at the points ≡ 0 (mod 8), -/
theorem hcond1_0 : ∀ t : Fin cfg1.N, cond1_0 (grid1.coords t) ↔ t.val % 8 = 0 :=
  (by decide +kernel : ∀ t : Fin grid1.N, cond1_0 (grid1.coords t) ↔ t.val % 8 = 0)
/-- and the second at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The four input windows are idle nowhere. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output window is idle exactly off key block 7, where its block is not written back either. -/
theorem idleAt1_4 : ∀ t : Fin cfg1.N, ¬cond1_1 (grid1.coords t) → cfg1.idle 4 (grid1.coords t) = true := by decide +kernel
theorem liveAt1_4 : ∀ t : Fin cfg1.N, cond1_1 (grid1.coords t) → cfg1.idle 4 (grid1.coords t) = false := by decide +kernel
theorem noFlush1_4 : ∀ t : Fin cfg1.N, ¬cond1_1 (grid1.coords t) → (cfg1.win 4).flush t = false := by decide +kernel

/-- Each input window's current staging buffer holds its block at every point, fetched there or not: where the
    pipeline does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the launch lends, opened: the other call's nine staging buffers and this call's three scratch arrays, each
    whole at some contents, and the generator register at some state. -/
theorem PhiA1_eq (c : Dev nD) :
    (Pipeline.ΦA spec1 c : sProp 𝕄)
      = iprop((anyAt (F := F) c cc0_stg0_0 ∗ anyAt (F := F) c cc0_stg0_1 ∗ anyAt (F := F) c cc0_stg1_0 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1
          ∗ (∃ x, owns (c : Thread nD τ) scM1_0 fullShare x) ∗ (∃ x, owns (c : Thread nD τ) scM1_1 fullShare x)
          ∗ (∃ x, owns (c : Thread nD τ) scM1_2 fullShare x)) ∗ ∃ r, prngReg c r) := by
  unfold Pipeline.ΦA; rw [scopedRest1_eq]; simp only [scM1_0, scM1_1, scM1_2, owns_whole]; try rfl

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)

/-- What the body is called with at point `t`: the invariant, nothing owed, and each window's current staging buffer
    at what it holds when the body runs; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four input buffers hold their blocks. The position of the point in its row of eight key
    blocks says which of the three runs applies. The invariant hands the body the three carried arrays at what the
    point before left (at anything before the very first point, which is at key block 0 and resets them) and takes
    them back one step further; the other call's staging buffers and the generator register pass through untouched.
    Off key block 7 the output buffer is handed back as found; at key block 7 it holds the quotient of the carried
    arrays after this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 8 = 0
  · have h1 : ¬ t.val % 8 = 7 := by omega
    have hc0 : cond1_0 (grid1.coords t) := (hcond1_0 t).mpr h0
    have hc1 : ¬ cond1_1 (grid1.coords t) := fun h => h1 ((hcond1_1 t).mp h)
    rw [Dat.leavesExact_idle (dat1 V c) 4 t (idleAt1_4 t hc1) (noFlush1_4 t hc1)]
    rw [stAt1_reset V c t h0]
    unfold carried1
    by_cases hz : t.val = 0
    · rw [PhiS1_castSucc V c t, PhiS1_zero V c _ _ hz, PhiA1_eq]
      iintro ⟨⟨⟨A1, A2, A3, A4, A5, A6, A7, A8, A9, ⟨%x7, S0⟩, ⟨%x8, S1⟩, ⟨%x9, S2⟩⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold carried1
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬ cond1_0 (grid1.coords t) := fun h => h0 ((hcond1_0 t).mp h)
    rw [stAt1_carry V c t h0]
    rw [PhiS1_castSucc V c t, PhiS1_pos V c _ _ hz]
    unfold carried1
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, stAt1_carry V c t h0]
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexact H4
    · have hc1 : ¬ cond1_1 (grid1.coords t) := fun h => h1 ((hcond1_1 t).mp h)
      rw [Dat.leavesExact_idle (dat1 V c) 4 t (idleAt1_4 t hc1) (noFlush1_4 t hc1)]
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4

/-- The library's body obligation of the second call, at every grid point. -/
theorem body_obligation1 (c : Dev nD) : BodyObligation (dat1 (F := F) V c) (defs₀ (F := F)) Variants.none () Set.univ := by
  intro t
  rw [bigSep_W1, bigSep_W1]
  exact sound_body1 V c t

/-- What the launch lends the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch lent: what the three scratch arrays hold is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold carried1
  iintro ⟨⟨A1, A2, A3, A4, A5, A6, A7, A8, A9, S0, S1, S2⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexists _; iexact S0
    isplitl [S1]; · iexists _; iexact S1
    iexists _; iexact S2
  iexact Hg

/-- After the last point the invariant gives back what the launch lent: the scratch arrays' contents are forgotten. -/
theorem hout1 (c : Dev nD) : (dat1 V c).Φ (Fin.last cfg1.N) ⊢ (Pipeline.ΦA spec1 c : sProp 𝕄) := by
  exact Phi_out1 V c _ (by rw [Fin.val_last]; have : cfg1.N = 32 := N_1; omega)

end Region1

end Cert.Kernel.Hand

end
-- ==== Proof.KRun.lean ====
/-
  @main from the launch to the return: one stretch of host operations (the three weight matrices concatenated
  along the columns, then rounded to bf16), the first pallas_call (the projection onto [Wq | Wk | Wv]), the second
  (attention over the three thirds under the mask). Here: the contents of every unscoped buffer at each boundary
  as a fold from the launch memory, each argument read back through the fold to its launch contents, the two
  calls as segments of the run, the run with every unscoped buffer's final contents named, and the frame claim.
-/
import proofs.«400698_j61830349193486_3_alg».proof.Proof.Gen.Kernel.Launch
import proofs.«400698_j61830349193486_3_alg».proof.Proof.Gen.Kernel.Skeleton
import proofs.«400698_j61830349193486_3_alg».proof.Proof.Gen.Kernel.Points
import proofs.«400698_j61830349193486_3_alg».proof.Proof.KR0Body
import proofs.«400698_j61830349193486_3_alg».proof.Proof.KR1Body
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch (the first call's entry): the concatenated weights and their bf16 rounding written,
    everything else as launched. -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its five arrays at what the pipeline leaves (the two inputs as entered, each third
    of the product with its write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents, the second call's entry). -/
abbrev V2 : (c : Dev nD) → (b : Ref sig .tc) → Buf (Elt F) ((c : Thread nD τ).loc b) := fun c b => W2 m ρ c b
/-- At the first call's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its five arrays at what the pipeline leaves (the three thirds and the mask as
    entered, the output with its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second call's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The host stretch writes the concatenation and its rounding and nothing else; the first call reads `main_arg0`
through an input window and bypasses the other arguments; the second reads the mask `main_arg1` through an input
window and bypasses the others. So the fold at an argument's buffer walks back to the launch memory. -/

/-- The references the host stretch writes. -/
theorem hostOps0_writes : (hostOps0 : List (HloOp τ sig (Elt F))).Forall fun op =>
    op.writes ⊆ (([main_v0, main_v1] : List (Ref sig .tc)).map (Proc.devRef (τ := τ) .tc)).toFinset := by
  simp only [List.Forall, StableHlo.nary_writes, StableHlo.unary_writes, Finset.singleton_subset_iff, List.mem_toFinset]
  exact ⟨List.mem_map_of_mem (a := main_v0) (by decide), List.mem_map_of_mem (a := main_v1) (by decide)⟩

/-- A buffer the host stretch does not write holds after it what it held at launch. -/
theorem W1_of (c : Dev nD) (r : Ref sig .tc) (h : r ∉ ([main_v0, main_v1] : List (Ref sig .tc))) :
    W1 m ρ c (Proc.devRef .tc r) = m ((c : Thread nD τ).loc r) :=
  (StableHlo.after_of_writes_sub hostOps0 _ hostOps0_writes h).trans rfl

theorem W1_main_arg0 (c : Dev nD) : W1 m ρ c (Proc.devRef .tc main_arg0) = m ((c : Thread nD τ).loc main_arg0) :=
  W1_of m ρ c main_arg0 (by decide)
theorem W1_main_arg1 (c : Dev nD) : W1 m ρ c (Proc.devRef .tc main_arg1) = m ((c : Thread nD τ).loc main_arg1) :=
  W1_of m ρ c main_arg1 (by decide)
theorem W1_main_arg2 (c : Dev nD) : W1 m ρ c (Proc.devRef .tc main_arg2) = m ((c : Thread nD τ).loc main_arg2) :=
  W1_of m ρ c main_arg2 (by decide)
theorem W1_main_arg3 (c : Dev nD) : W1 m ρ c (Proc.devRef .tc main_arg3) = m ((c : Thread nD τ).loc main_arg3) :=
  W1_of m ρ c main_arg3 (by decide)
theorem W1_main_arg4 (c : Dev nD) : W1 m ρ c (Proc.devRef .tc main_arg4) = m ((c : Thread nD τ).loc main_arg4) :=
  W1_of m ρ c main_arg4 (by decide)

/-- `main_arg0` is the first call's input window 0: its array leaves the call as it entered. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
/-- The mask is no array of the first call: it reaches the second as launched. -/
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
/-- The mask is the second call's input window 3: its array leaves the call as it entered. -/
theorem W3_main_arg1 (c : Dev nD) : W3 m ρ c (Proc.devRef .tc main_arg1) = m ((c : Thread nD τ).loc main_arg1) :=
  ((W3_arr m ρ c 3).trans (((dat1 (V2 m ρ) c).arrAt_in 3 rfl _).trans (A_eq1 (V2 m ρ) c 3))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_of_ne m ρ c main_arg4 (by decide)).trans (W2_main_arg4 m ρ c)

/-! ## The proof data family and the thread state -/

/-- The prefetched tables' admissible contents: neither call has a table. -/
abbrev adm : (p : Fin 2) → (pcfgs (F := F) p).Adm := fun p => (cfgs p).toPCfg_adm
/-- Each call's proof data at its own entry contents: the first call's at what the host stretch leaves, the second's
    at what the first call leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The first call over the thread state: entered from every unscoped buffer at `W1`, left at `W2`. Its five arrays
    are split out of the unscoped buffers and put back at the exit contents; the generator register goes into the
    invariant (the scoped buffers no window stages, the register) and comes back; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W2`, left at `W3` (what the launch
    reads at the end). Its five arrays are split out of the unscoped buffers and put back at the exit contents. Its
    invariant before the first point is what the launch lends — the scoped buffers no window stages at anything, the
    generator register — and after the last point the invariant (the carried scratch arrays at named contents) gives
    that back, the contents forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two calls back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its three items, and so is the segments' run. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state every unscoped buffer of every core holds the
    last boundary's contents `W3`: the launch over the three segments, the last thread state read against the final
    state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every final state has the five argument arrays as launched. Each is an unscoped buffer, so the run
    names its final contents, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KIR0Data.lean ====
/-
  The first pallas_call: the projection of a block of 512 rows of x onto the 3072 columns of [Wq | Wk | Wv],
  cut into its three 1024-column thirds. What the call is handed and what it leaves, as the launch theorems
  take it: each window's block at a grid point read off the array the region finds, and each output window's
  staging buffer after the body as one third of the product of the two input blocks.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q third of the product of a row block with the concatenated weights. -/
def out0_2 (x0 : Vec F S512x1024 .f32) (x1 : Vec F S1024x3072 .bf16) : Vec F S512x1024 .bf16 := k0_pay2 x0 x1
/-- The k third. -/
def out0_3 (x0 : Vec F S512x1024 .f32) (x1 : Vec F S1024x3072 .bf16) : Vec F S512x1024 .bf16 := k0_pay3 x0 x1
/-- The v third. -/
def out0_4 (x0 : Vec F S512x1024 .f32) (x1 : Vec F S1024x3072 .bf16) : Vec F S512x1024 .bf16 := k0_pay4 x0 x1

/-- The proof data of the first call on core `c`: the arrays as the region finds them; after the body at point `t`
    the two inputs' buffers at their blocks and the three outputs' at the three thirds of the product of those
    blocks; nothing kept between points beyond what the launch lends (scratch of the other call, the generator
    register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Region0

end Cert.KernelIdeal.Hand

end
-- ==== Proof.KIR0Body.lean ====
/-
  The first pallas_call's body at a grid point: it loads the two input blocks, multiplies, and stores the three
  thirds of the product into the three output blocks; nothing else is touched.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIR0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- The x window's staging buffer holds its block at every point: fetched there. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The weight window's staging buffer holds its block at every point, fetched there or not: its block index never moves. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The two zero offsets, as the constant function. -/
theorem zeros2 : (![0, 0] : Fin 2 → ℕ) = fun _ => 0 := by
  funext a
  match a with
  | ⟨0, _⟩ => rfl
  | ⟨1, _⟩ => rfl

/-- A load through the whole-shape rectangle at zero offsets reads the view's contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit (s := S) off S.size inb).toLoadRect f = v.read (Elt F) f :=
  (View.readAt_eq_ld v f (Rect.unit (s := S) off S.size inb)).trans (View.ld_unit_zero (S := S) hz inb _)

/-- One store through the whole-shape rectangle at zero offsets leaves its payload, whatever was there. -/
theorem read_writes_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f _ (fun y => ⟨_, List.mem_singleton_self _, View.mem_set_unit_zero (S := S) hz inb y⟩)).trans
    (View.canon_unit_zero (S := S) hz inb w)

set_option maxHeartbeats 1000000 in
/-- The kernel body on whole staging memrefs, the two inputs' at read contents and the three outputs' at anything, runs
    to the continuation holding the inputs' as they were and each output's at its third of the product. -/
theorem sound_kernel0 (c : Dev nD) (E : Set ℕ) (i : grid0.Coords)
    (arg0 : Memref sig .tc .vmem S512x1024 .f32) (harg0 : arg0.IsWhole)
    (arg1 : Memref sig .tc .vmem S1024x3072 .bf16) (harg1 : arg1.IsWhole)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (x0 : Vec F S512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E (cc0__qkv_matmul_kernel i arg0 harg0 arg1 harg1 arg2 harg2 arg3 harg3 arg4 harg4) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ zeros2, readAt_whole _ _ zeros2, readAt_whole _ _ zeros2]
    rfl
  isplitl [H3]
  · iexists _; isplitr
    swap; · iexact H3
    ipureintro
    rw [read_writes_whole _ _ zeros2, readAt_whole _ _ zeros2, readAt_whole _ _ zeros2]
    rfl
  iexists _; isplitr
  swap; · iexact H4
  ipureintro
  rw [read_writes_whole _ _ zeros2, readAt_whole _ _ zeros2, readAt_whole _ _ zeros2]
  rfl

/-- What the body is called with at point `t`: the invariant, the core's debts, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of the first call, at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIR1Data.lean ====
/-
  The second pallas_call: attention of a block of 1024 query rows against the keys and values, 512 at a time,
  on the grid (query block, key block) = 4 × 8 run key block fastest. Between grid points the call keeps three
  scratch arrays: per query row the running maximum of the scores seen so far, the running sum of their
  exponentials against that maximum, and the running exponential-weighted sum of the value rows. At key block 0
  the three are reset; at every point they take in one block of 512 scores; at key block 7 the weighted sum
  divided by the (floored) sum of weights is stored into the output block, which is written back there and
  nowhere else. Here: the three arrays after each grid point as a recursion on the point, and the proof data
  of the call as the launch theorems take it.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried arrays: running maximum, running sum of weights, running weighted sum of value rows. -/
abbrev St1 (F : FTy → Type) [FloatOps F] : Type := Vec F S1024x1 .f32 × Vec F S1024x1 .f32 × Vec F S1024x1024 .f32

/-- What key block 0 resets them to. -/
def init1 : St1 F := (k1_pay5 (F := F), k1_pay6 (F := F), k1_pay7 (F := F))

/-- One grid point: the carried arrays after taking in the scores of a query block `q` against a key block `k`
    under the mask block `mk`, with value block `v`. -/
def step1 (q : Vec F S1024x1024 .bf16) (k : Vec F S512x1024 .bf16) (v : Vec F S512x1024 .bf16) (mk : Vec F S1024x512 .f32)
    (s : St1 F) : St1 F :=
  (k1_pay3 (k1_pay10 q k mk s.1),
   k1_pay1 (k1_pay13 q k mk s.1 s.1 s.2.1),
   k1_pay2 (k1_pay8 v) (k1_pay11 q k mk s.1 s.1) (k1_pay12 q k mk s.1) s.2.2)

/-- The output block from the carried arrays: the weighted sum over the floored sum of weights. -/
def out1 (s : St1 F) : Vec F S1024x1024 .f32 := k1_pay4 s.2.1 s.2.2

/-- The carried arrays after grid point `n`: one step from the reset values when `n` is at key block 0, else from
    what the point before left. -/
def stAt1 (c : Dev nD) : (n : ℕ) → n < cfg1.N → St1 F
  | 0, hn => step1 (iblk1 V c 0 ⟨0, hn⟩) (iblk1 V c 1 ⟨0, hn⟩) (iblk1 V c 2 ⟨0, hn⟩) (iblk1 V c 3 ⟨0, hn⟩) init1
  | n + 1, hn => step1 (iblk1 V c 0 ⟨n + 1, hn⟩) (iblk1 V c 1 ⟨n + 1, hn⟩) (iblk1 V c 2 ⟨n + 1, hn⟩) (iblk1 V c 3 ⟨n + 1, hn⟩)
      (if (n + 1) % 8 = 0 then init1 else stAt1 c n (Nat.lt_of_succ_lt hn))

theorem stAt1_reset (c : Dev nD) (t : Fin cfg1.N) (h : t.val % 8 = 0) :
    stAt1 V c t.val t.isLt = step1 (iblk1 V c 0 t) (iblk1 V c 1 t) (iblk1 V c 2 t) (iblk1 V c 3 t) init1 := by
  obtain ⟨n, hn⟩ := t
  cases n with
  | zero => rfl
  | succ n => exact congrArg _ (if_pos h)

theorem stAt1_carry (c : Dev nD) (t : Fin cfg1.N) (h : ¬ t.val % 8 = 0) :
    stAt1 V c t.val t.isLt = step1 (iblk1 V c 0 t) (iblk1 V c 1 t) (iblk1 V c 2 t) (iblk1 V c 3 t)
      (stAt1 V c (t.val - 1) (Nat.lt_of_le_of_lt (Nat.sub_le _ _) t.isLt)) := by
  obtain ⟨n, hn⟩ := t
  cases n with
  | zero => exact absurd (Nat.zero_mod _) h
  | succ n => exact congrArg _ (if_neg h)

/-- The call's scratch operands as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- A scoped buffer of the core held whole at contents nobody names. -/
abbrev anyAt (c : Dev nD) (r : Ref sig .tc) : sProp 𝕄 :=
  iprop(∃ f : Buf (Elt F) ((c : Thread nD τ).loc r), ((c : Thread nD τ).loc r) ↦{fullShare} f)

/-- What the call keeps between grid points once a point has run: the other call's staging buffers at anything,
    its own three scratch arrays at the carried arrays `s`, and the generator register at some state. -/
def carried1 (c : Dev nD) (s : St1 F) : sProp 𝕄 :=
  iprop((anyAt (F := F) c cc0_stg0_0 ∗ anyAt (F := F) c cc0_stg0_1 ∗ anyAt (F := F) c cc0_stg1_0 ∗ anyAt (F := F) c cc0_stg2_0
      ∗ anyAt (F := F) c cc0_stg2_1 ∗ anyAt (F := F) c cc0_stg3_0 ∗ anyAt (F := F) c cc0_stg3_1 ∗ anyAt (F := F) c cc0_stg4_0
      ∗ anyAt (F := F) c cc0_stg4_1
      ∗ owns (c : Thread nD τ) scM1_0 fullShare s.1 ∗ owns (c : Thread nD τ) scM1_1 fullShare s.2.1
      ∗ owns (c : Thread nD τ) scM1_2 fullShare s.2.2)
    ∗ ∃ r, prngReg c r)

/-- The region invariant before position `n`: before the first point what the launch lends (every scratch at
    anything); afterwards the three scratch arrays at what the point before left. -/
def PhiS1 (c : Dev nD) : (n : ℕ) → n ≤ cfg1.N → sProp 𝕄
  | 0, _ => Pipeline.ΦA spec1 c
  | n + 1, hn => carried1 c (stAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = carried1 c (stAt1 V c n hn) := rfl

theorem PhiS1_pos (c : Dev nD) (n : ℕ) (h : n ≤ cfg1.N) (hz : n ≠ 0) :
    PhiS1 V c n h = carried1 c (stAt1 V c (n - 1) (by omega)) := by
  cases n with
  | zero => exact absurd rfl hz
  | succ n => rfl

/-- The proof data of the second call on core `c`: the arrays as the region finds them; after the body at point `t`
    the four inputs' buffers at their blocks and the output's at the quotient of the carried arrays after `t`
    (consulted only at key block 7, where the body stores it and the pipeline writes it back); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (stAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (stAt1 V c t.val t.isLt) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Region1

end Cert.KernelIdeal.Hand

end
-- ==== Proof.KIR1Body.lean ====
/-
  The second pallas_call's body at a grid point, by the position of the point in its row of eight key blocks:
  first (the carried arrays are reset, then one block is taken in), middle (one block is taken in), last (one
  block is taken in, then the quotient is stored into the output block).
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIR1Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first conditional's test as the body computes it from the key-block coordinate: it holds exactly at key block 0. -/
abbrev cond1_0 (i : grid1.Coords) : Prop := (Scalar.cmpi .ne (Scalar.extui (Scalar.cmpi .eq (BitVec.ofNat 32 (i 1).val) 0#32)) 0#32) = 1#1
/-- The second conditional's test: it holds exactly at key block 7. -/
abbrev cond1_1 (i : grid1.Coords) : Prop := k1_cond2 i = 1#1

set_option maxHeartbeats 4000000 in
/-- The body at key block 0: whatever the three carried arrays held, they are reset and then take in the block, so
    they come out one step from the reset values; the inputs' and the output's buffers are left as found. -/
theorem run1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : cond1_0 i) (hc1 : ¬ cond1_1 i)
    (q : Vec F S1024x1024 .bf16) (k : Vec F S512x1024 .bf16) (v : Vec F S512x1024 .bf16) (mk : Vec F S1024x512 .f32)
    (d : Vec F S1024x1024 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ (∃ x, owns (c : Thread nD τ) arg7 fullShare x) ∗ (∃ x, owns (c : Thread nD τ) arg8 fullShare x) ∗ (∃ x, owns (c : Thread nD τ) arg9 fullShare x)
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
            ∗ owns (c : Thread nD τ) arg7 fullShare (step1 q k v mk init1).1 ∗ owns (c : Thread nD τ) arg8 fullShare (step1 q k v mk init1).2.1
            ∗ owns (c : Thread nD τ) arg9 fullShare (step1 q k v mk init1).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%x7, %f7, -, H7⟩, ⟨%x8, %f8, -, H8⟩, ⟨%x9, %f9, -, H9⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    refine (View.read_writes_eq_canon _ _ _ (fun y => ⟨_, List.mem_cons.mpr (Or.inl rfl), View.mem_set_unit_zero hzR inb_S1024x1_S1024x1_0_0 y⟩)).trans ?_
    refine (View.canon_cons_unit_zero hzR _ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    sl_unfold_words
    refine (View.read_writes_eq_canon _ _ _ (fun y => ⟨_, List.mem_cons.mpr (Or.inl rfl), View.mem_set_unit_zero hzR inb_S1024x1_S1024x1_0_0 y⟩)).trans ?_
    refine (View.canon_cons_unit_zero hzR _ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  sl_unfold_words
  refine (View.read_writes_eq_canon _ _ _ (fun y => ⟨_, List.mem_cons.mpr (Or.inl rfl), View.mem_set_unit_zero hzQ inb_S1024x1024_S1024x1024_0_0 y⟩)).trans ?_
  refine (View.canon_cons_unit_zero hzQ _ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

set_option maxHeartbeats 4000000 in
/-- The body at a key block that is neither 0 nor 7: the three carried arrays take in the block; the inputs' and the
    output's buffers are left as found. -/
theorem run1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : ¬ cond1_0 i) (hc1 : ¬ cond1_1 i)
    (q : Vec F S1024x1024 .bf16) (k : Vec F S512x1024 .bf16) (v : Vec F S512x1024 .bf16) (mk : Vec F S1024x512 .f32)
    (d : Vec F S1024x1024 .f32) (s : St1 F) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ owns (c : Thread nD τ) arg7 fullShare s.1 ∗ owns (c : Thread nD τ) arg8 fullShare s.2.1 ∗ owns (c : Thread nD τ) arg9 fullShare s.2.2
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
            ∗ owns (c : Thread nD τ) arg7 fullShare (step1 q k v mk s).1 ∗ owns (c : Thread nD τ) arg8 fullShare (step1 q k v mk s).2.1
            ∗ owns (c : Thread nD τ) arg9 fullShare (step1 q k v mk s).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  refine (View.read_writes_eq_canon _ _ _ (fun y => ⟨_, List.mem_singleton_self _, View.mem_set_unit_zero hzQ inb_S1024x1024_S1024x1024_0_0 y⟩)).trans ?_
  refine (View.canon_unit_zero hzQ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

set_option maxHeartbeats 4000000 in
/-- The body at key block 7: the three carried arrays take in the block, and the quotient of the new weighted sum by
    the new (floored) sum of weights is stored over the whole output block. -/
theorem run1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc0 : ¬ cond1_0 i) (hc1 : cond1_1 i)
    (q : Vec F S1024x1024 .bf16) (k : Vec F S512x1024 .bf16) (v : Vec F S512x1024 .bf16) (mk : Vec F S1024x512 .f32)
    (d : Vec F S1024x1024 .f32) (s : St1 F) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare d
        ∗ owns (c : Thread nD τ) arg7 fullShare s.1 ∗ owns (c : Thread nD τ) arg8 fullShare s.2.1 ∗ owns (c : Thread nD τ) arg9 fullShare s.2.2
        ∗ (iprop(owns (c : Thread nD τ) arg2 fullShare q ∗ owns (c : Thread nD τ) arg3 fullShare k ∗ owns (c : Thread nD τ) arg4 fullShare v
        ∗ owns (c : Thread nD τ) arg5 fullShare mk ∗ owns (c : Thread nD τ) arg6 fullShare (out1 (step1 q k v mk s))
            ∗ owns (c : Thread nD τ) arg7 fullShare (step1 q k v mk s).1 ∗ owns (c : Thread nD τ) arg8 fullShare (step1 q k v mk s).2.1
            ∗ owns (c : Thread nD τ) arg9 fullShare (step1 q k v mk s).2.2) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  have hzQ : (![0, 0] : Fin S1024x1024.rank → Nat) = fun _ => 0 := funext fun a => by fin_cases a <;> rfl
  have hzK : (![0, 0] : Fin S512x1024.rank → Nat) = fun _ => 0 := funext fun a => by fin_cases a <;> rfl
  have hzM : (![0, 0] : Fin S1024x512.rank → Nat) = fun _ => 0 := funext fun a => by fin_cases a <;> rfl
  have hzR : (![0, 0] : Fin S1024x1.rank → Nat) = fun _ => 0 := funext fun a => by fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (View.read_writes_eq_canon _ _ _ (fun y => ⟨_, List.mem_singleton_self _, View.mem_set_unit_zero hzQ inb_S1024x1024_S1024x1024_0_0 y⟩)).trans ?_
    refine (View.canon_unit_zero hzQ _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H7]
  · iexists _; isplitr
    swap; · iexact H7
    ipureintro
    sl_unfold_words
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  isplitl [H8]
  · iexists _; isplitr
    swap; · iexact H8
    ipureintro
    sl_unfold_words
    refine (View.read_writes_eq_canon _ _ _ (fun y => ⟨_, List.mem_singleton_self _, View.mem_set_unit_zero hzR inb_S1024x1_S1024x1_0_0 y⟩)).trans ?_
    refine (View.canon_unit_zero hzR _ _).trans ?_
    dsimp only
    simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
    first | rfl | done
  iexists _; isplitr
  swap; · iexact H9
  ipureintro
  sl_unfold_words
  refine (View.read_writes_eq_canon _ _ _ (fun y => ⟨_, List.mem_singleton_self _, View.mem_set_unit_zero hzQ inb_S1024x1024_S1024x1024_0_0 y⟩)).trans ?_
  refine (View.canon_unit_zero hzQ _ _).trans ?_
  dsimp only
  simp only [View.readAt_eq_ld, harg2.read_unread, harg3.read_unread, harg4.read_unread, harg5.read_unread, harg6.read_unread, harg7.read_unread, harg8.read_unread, harg9.read_unread,
      View.ld_unit_zero (S := S1024x1024) hzQ, View.ld_unit_zero (S := S512x1024) hzK, View.ld_unit_zero (S := S1024x512) hzM, View.ld_unit_zero (S := S1024x1) hzR,
      View.readCov_unit_zero (S := S1024x1) _ hzR, View.readCov_unit_zero (S := S1024x1024) _ hzQ]
  first | rfl | done

section Region1

variable (V : (c : Dev nD) → (b : Ref sig .tc) → Buf (Elt F) ((c : Thread nD τ).loc b))

/-- Over the grid of 4 × 8 points run key block fastest, the first test holds at the points ≡ 0 (mod 8), -/
theorem hcond1_0 : ∀ t : Fin cfg1.N, cond1_0 (grid1.coords t) ↔ t.val % 8 = 0 :=
  (by decide +kernel : ∀ t : Fin grid1.N, cond1_0 (grid1.coords t) ↔ t.val % 8 = 0)
/-- and the second at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The four input windows are idle nowhere. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output window is idle exactly off key block 7, where its block is not written back either. -/
theorem idleAt1_4 : ∀ t : Fin cfg1.N, ¬cond1_1 (grid1.coords t) → cfg1.idle 4 (grid1.coords t) = true := by decide +kernel
theorem liveAt1_4 : ∀ t : Fin cfg1.N, cond1_1 (grid1.coords t) → cfg1.idle 4 (grid1.coords t) = false := by decide +kernel
theorem noFlush1_4 : ∀ t : Fin cfg1.N, ¬cond1_1 (grid1.coords t) → (cfg1.win 4).flush t = false := by decide +kernel

/-- Each input window's current staging buffer holds its block at every point, fetched there or not: where the
    pipeline does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the launch lends, opened: the other call's nine staging buffers and this call's three scratch arrays, each
    whole at some contents, and the generator register at some state. -/
theorem PhiA1_eq (c : Dev nD) :
    (Pipeline.ΦA spec1 c : sProp 𝕄)
      = iprop((anyAt (F := F) c cc0_stg0_0 ∗ anyAt (F := F) c cc0_stg0_1 ∗ anyAt (F := F) c cc0_stg1_0 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1
          ∗ (∃ x, owns (c : Thread nD τ) scM1_0 fullShare x) ∗ (∃ x, owns (c : Thread nD τ) scM1_1 fullShare x)
          ∗ (∃ x, owns (c : Thread nD τ) scM1_2 fullShare x)) ∗ ∃ r, prngReg c r) := by
  unfold Pipeline.ΦA; rw [scopedRest1_eq]; simp only [scM1_0, scM1_1, scM1_2, owns_whole]; try rfl

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)

/-- What the body is called with at point `t`: the invariant, nothing owed, and each window's current staging buffer
    at what it holds when the body runs; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four input buffers hold their blocks. The position of the point in its row of eight key
    blocks says which of the three runs applies. The invariant hands the body the three carried arrays at what the
    point before left (at anything before the very first point, which is at key block 0 and resets them) and takes
    them back one step further; the other call's staging buffers and the generator register pass through untouched.
    Off key block 7 the output buffer is handed back as found; at key block 7 it holds the quotient of the carried
    arrays after this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 8 = 0
  · have h1 : ¬ t.val % 8 = 7 := by omega
    have hc0 : cond1_0 (grid1.coords t) := (hcond1_0 t).mpr h0
    have hc1 : ¬ cond1_1 (grid1.coords t) := fun h => h1 ((hcond1_1 t).mp h)
    rw [Dat.leavesExact_idle (dat1 V c) 4 t (idleAt1_4 t hc1) (noFlush1_4 t hc1)]
    rw [stAt1_reset V c t h0]
    unfold carried1
    by_cases hz : t.val = 0
    · rw [PhiS1_castSucc V c t, PhiS1_zero V c _ _ hz, PhiA1_eq]
      iintro ⟨⟨⟨A1, A2, A3, A4, A5, A6, A7, A8, A9, ⟨%x7, S0⟩, ⟨%x8, S1⟩, ⟨%x9, S2⟩⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold carried1
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬ cond1_0 (grid1.coords t) := fun h => h0 ((hcond1_0 t).mp h)
    rw [stAt1_carry V c t h0]
    rw [PhiS1_castSucc V c t, PhiS1_pos V c _ _ hz]
    unfold carried1
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, stAt1_carry V c t h0]
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexact H4
    · have hc1 : ¬ cond1_1 (grid1.coords t) := fun h => h1 ((hcond1_1 t).mp h)
      rw [Dat.leavesExact_idle (dat1 V c) 4 t (idleAt1_4 t hc1) (noFlush1_4 t hc1)]
      iintro ⟨⟨⟨A1, A2, A3, A4, A5, A6, A7, A8, A9, S0, S1, S2⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [A1 A2 A3 A4 A5 A6 A7 A8 A9 S0 S1 S2 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4

/-- The library's body obligation of the second call, at every grid point. -/
theorem body_obligation1 (c : Dev nD) : BodyObligation (dat1 (F := F) V c) (defs₀ (F := F)) Variants.none () Set.univ := by
  intro t
  rw [bigSep_W1, bigSep_W1]
  exact sound_body1 V c t

/-- What the launch lends the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch lent: what the three scratch arrays hold is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold carried1
  iintro ⟨⟨A1, A2, A3, A4, A5, A6, A7, A8, A9, S0, S1, S2⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexists _; iexact S0
    isplitl [S1]; · iexists _; iexact S1
    iexists _; iexact S2
  iexact Hg

/-- After the last point the invariant gives back what the launch lent: the scratch arrays' contents are forgotten. -/
theorem hout1 (c : Dev nD) : (dat1 V c).Φ (Fin.last cfg1.N) ⊢ (Pipeline.ΦA spec1 c : sProp 𝕄) := by
  exact Phi_out1 V c _ (by rw [Fin.val_last]; have : cfg1.N = 32 := N_1; omega)

end Region1

end Cert.KernelIdeal.Hand

end
-- ==== Proof.KIRun.lean ====
/-
  @main from the launch to the return: one stretch of host operations (the three weight matrices concatenated
  along the columns, then rounded to bf16), the first pallas_call (the projection onto [Wq | Wk | Wv]), the second
  (attention over the three thirds under the mask). Here: the contents of every unscoped buffer at each boundary
  as a fold from the launch memory, each argument read back through the fold to its launch contents, the two
  calls as segments of the run, the run with every unscoped buffer's final contents named, and the frame claim.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIR0Body
import proofs.«400698_j61830349193486_3_alg».proof.Proof.KIR1Body
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch (the first call's entry): the concatenated weights and their bf16 rounding written,
    everything else as launched. -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its five arrays at what the pipeline leaves (the two inputs as entered, each third
    of the product with its write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents, the second call's entry). -/
abbrev V2 : (c : Dev nD) → (b : Ref sig .tc) → Buf (Elt F) ((c : Thread nD τ).loc b) := fun c b => W2 m ρ c b
/-- At the first call's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its five arrays at what the pipeline leaves (the three thirds and the mask as
    entered, the output with its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second call's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The host stretch writes the concatenation and its rounding and nothing else; the first call reads `main_arg0`
through an input window and bypasses the other arguments; the second reads the mask `main_arg1` through an input
window and bypasses the others. So the fold at an argument's buffer walks back to the launch memory. -/

/-- The references the host stretch writes. -/
theorem hostOps0_writes : (hostOps0 : List (HloOp τ sig (Elt F))).Forall fun op =>
    op.writes ⊆ (([main_v0, main_v1] : List (Ref sig .tc)).map (Proc.devRef (τ := τ) .tc)).toFinset := by
  simp only [List.Forall, StableHlo.nary_writes, StableHlo.unary_writes, Finset.singleton_subset_iff, List.mem_toFinset]
  exact ⟨List.mem_map_of_mem (a := main_v0) (by decide), List.mem_map_of_mem (a := main_v1) (by decide)⟩

/-- A buffer the host stretch does not write holds after it what it held at launch. -/
theorem W1_of (c : Dev nD) (r : Ref sig .tc) (h : r ∉ ([main_v0, main_v1] : List (Ref sig .tc))) :
    W1 m ρ c (Proc.devRef .tc r) = m ((c : Thread nD τ).loc r) :=
  (StableHlo.after_of_writes_sub hostOps0 _ hostOps0_writes h).trans rfl

theorem W1_main_arg0 (c : Dev nD) : W1 m ρ c (Proc.devRef .tc main_arg0) = m ((c : Thread nD τ).loc main_arg0) :=
  W1_of m ρ c main_arg0 (by decide)
theorem W1_main_arg1 (c : Dev nD) : W1 m ρ c (Proc.devRef .tc main_arg1) = m ((c : Thread nD τ).loc main_arg1) :=
  W1_of m ρ c main_arg1 (by decide)
theorem W1_main_arg2 (c : Dev nD) : W1 m ρ c (Proc.devRef .tc main_arg2) = m ((c : Thread nD τ).loc main_arg2) :=
  W1_of m ρ c main_arg2 (by decide)
theorem W1_main_arg3 (c : Dev nD) : W1 m ρ c (Proc.devRef .tc main_arg3) = m ((c : Thread nD τ).loc main_arg3) :=
  W1_of m ρ c main_arg3 (by decide)
theorem W1_main_arg4 (c : Dev nD) : W1 m ρ c (Proc.devRef .tc main_arg4) = m ((c : Thread nD τ).loc main_arg4) :=
  W1_of m ρ c main_arg4 (by decide)

/-- `main_arg0` is the first call's input window 0: its array leaves the call as it entered. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
/-- The mask is no array of the first call: it reaches the second as launched. -/
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
/-- The mask is the second call's input window 3: its array leaves the call as it entered. -/
theorem W3_main_arg1 (c : Dev nD) : W3 m ρ c (Proc.devRef .tc main_arg1) = m ((c : Thread nD τ).loc main_arg1) :=
  ((W3_arr m ρ c 3).trans (((dat1 (V2 m ρ) c).arrAt_in 3 rfl _).trans (A_eq1 (V2 m ρ) c 3))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_of_ne m ρ c main_arg4 (by decide)).trans (W2_main_arg4 m ρ c)

/-! ## The proof data family and the thread state -/

/-- The prefetched tables' admissible contents: neither call has a table. -/
abbrev adm : (p : Fin 2) → (pcfgs (F := F) p).Adm := fun p => (cfgs p).toPCfg_adm
/-- Each call's proof data at its own entry contents: the first call's at what the host stretch leaves, the second's
    at what the first call leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The first call over the thread state: entered from every unscoped buffer at `W1`, left at `W2`. Its five arrays
    are split out of the unscoped buffers and put back at the exit contents; the generator register goes into the
    invariant (the scoped buffers no window stages, the register) and comes back; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W2`, left at `W3` (what the launch
    reads at the end). Its five arrays are split out of the unscoped buffers and put back at the exit contents. Its
    invariant before the first point is what the launch lends — the scoped buffers no window stages at anything, the
    generator register — and after the last point the invariant (the carried scratch arrays at named contents) gives
    that back, the contents forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two calls back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its three items, and so is the segments' run. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state every unscoped buffer of every core holds the
    last boundary's contents `W3`: the launch over the three segments, the last thread state read against the final
    state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every final state has the five argument arrays as launched. Each is an unscoped buffer, so the run
    names its final contents, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.Spec.lean ====
/-
  Single-sequence scaled dot-product attention with an additive mask, as one function of the five arguments.

  x is 4096 × 1024, the three weights are 1024 × 1024, the mask is 4096 × 4096. With q = x·Wq, k = x·Wk, v = x·Wv the
  score of query row i against key row j is  s i j = (∑ h, q i h · k j h) · (1/32) + mask i j · w,  w the word of −10⁹
  that both programs carry; row i of the result is the softmax of row i of s applied to the rows of v:
      out i c = ∑ j, (e^(s i j − M i) / ∑ j', e^(s i j' − M i)) · v j c,     M i = max over j of s i j.
-/
import Idealize.ShloMosaic.PureOps.Ideal
import Idealize.ShloMosaic.Lib.ValueIdx

noncomputable section

open scoped BigOperators

namespace Cert.Spec

open Idealize.ShloMosaic

/-- A matrix of extended reals. -/
abbrev Mat (a b : ℕ) : Type := Fin a → Fin b → EReal

/-- A rank-2 array read as a matrix. -/
def mat {a b : ℕ} (A : (⟨2, ![a, b]⟩ : Shape).Idx → EReal) : Mat a b := fun i j => A (ValueIdx.ix2 i j)

/-- The projection x · W. -/
def proj (x : Mat 4096 1024) (W : Mat 1024 1024) : Mat 4096 1024 := fun i h => ∑ d : Fin 1024, x i d * W d h

/-- The factor of the mask, −10⁹ as both programs spell it. -/
def maskWord : EReal := Ideal.ofBits .f32 0xCE6E6B28#32

/-- The scores from projected queries and keys. -/
def scoreOf (q k : Mat 4096 1024) (mask : Mat 4096 4096) : Mat 4096 4096 :=
  fun i j => (∑ h : Fin 1024, q i h * k j h) * ((1 / 32 : ℝ) : EReal) + mask i j * maskWord

/-- The largest score of a row. -/
def rowMax (s : Mat 4096 4096) (i : Fin 4096) : EReal := Finset.univ.sup (s i)

/-- The weight of key j for query i. -/
def wgt (s : Mat 4096 4096) (i j : Fin 4096) : EReal := Ideal.exp (s i j - rowMax s i)

/-- The sum of a row's weights. -/
def wsum (s : Mat 4096 4096) (i : Fin 4096) : EReal := ∑ j : Fin 4096, wgt s i j

/-- The softmax of the rows of `s` applied to the rows of `v`. -/
def attn (s : Mat 4096 4096) (v : Mat 4096 1024) : Mat 4096 1024 :=
  fun i c => ∑ j : Fin 4096, Ideal.div (wgt s i j) (wsum s i) * v j c

/-- The whole function. -/
def G (x : Mat 4096 1024) (mask : Mat 4096 4096) (Wq Wk Wv : Mat 1024 1024) : Mat 4096 1024 :=
  attn (scoreOf (proj x Wq) (proj x Wk) mask) (proj x Wv)

/-- The result array. -/
def result (x : (⟨2, ![4096, 1024]⟩ : Shape).Idx → EReal) (mask : (⟨2, ![4096, 4096]⟩ : Shape).Idx → EReal)
    (Wq Wk Wv : (⟨2, ![1024, 1024]⟩ : Shape).Idx → EReal) : (⟨2, ![4096, 1024]⟩ : Shape).Idx → EReal :=
  fun i => G (mat x) (mat mask) (mat Wq) (mat Wk) (mat Wv) (i 0) (i 1)

theorem result_ix2 (x : (⟨2, ![4096, 1024]⟩ : Shape).Idx → EReal) (mask : (⟨2, ![4096, 4096]⟩ : Shape).Idx → EReal)
    (Wq Wk Wv : (⟨2, ![1024, 1024]⟩ : Shape).Idx → EReal) (p : Fin 4096) (c : Fin 1024) :
    result x mask Wq Wk Wv (ValueIdx.ix2 p c) = G (mat x) (mat mask) (mat Wq) (mat Wk) (mat Wv) p c := rfl

/-- An array all of whose entries are real numbers. -/
def AllReal {S : Shape} (A : S.Idx → EReal) : Prop := ∀ i, ∃ r : ℝ, A i = (r : EReal)

end Cert.Spec

end
-- ==== Proof.KIVal0.lean ====
/-
  What the first pallas_call leaves in its three result arrays, at the ideal instance: entry (p, h) of the
  q / k / v array is the inner product of row p of x with column h, 1024 + h, 2048 + h of the concatenated weights.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIR0Data
import proofs.«400698_j61830349193486_3_alg».proof.Proof.Spec
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

/-! ## The product of a row block with the weights, one entry at a time -/

section Product

/-- Axis 0 of the left operand's index is the output's row. -/
theorem lhs_qkv_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- Axis 1 of the left operand's index is the contraction position. -/
theorem lhs_qkv_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- Axis 0 of the right operand's index is the contraction position. -/
theorem rhs_qkv_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- Axis 1 of the right operand's index is the output's column. -/
theorem rhs_qkv_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

variable (x0 : S512x1024.Idx → EReal) (x1 : S1024x3072.Idx → EReal)

/-- Entry (r, j) of the product of a 512 × 1024 block with the 1024 × 3072 weights: the inner product of row r of
    the block with column j of the weights. The changes of format are the identity at the ideal instance, and the
    accumulator the product is added into is zero. -/
theorem qkv_pay1_apply (r : Fin 512) (j : Fin 3072) :
    k0_pay1 (F := Ideal) x0 x1 (ix2 r j) = ∑ d : Fin 1024, x0 (ix2 r d) * x1 (ix2 d j) := by
  unfold k0_pay1
  rw [shapeCast_self]
  show FloatOps.matmul (F := Ideal) dot_S512x1024_S1024x3072_S512x3072_1_0_0_1_n_n none (φ₁ := .bf16) (φ₂ := .bf16) x0 x1
      (constant (F := Ideal) S512x3072 .f32 0x00000000#32) (ix2 r j) = _
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r j) ((ValueIdx.contrEquiv1 dot_S512x1024_S1024x3072_S512x3072_1_0_0_1_n_n 1024 rfl rfl).symm k) = ix2 r k := funext fun a => Fin.ext (by
    match a with
    | ⟨0, _⟩ => exact lhs_qkv_0 _ _
    | ⟨1, _⟩ => exact (lhs_qkv_1 _ _).trans hk)
  have er : dot_S512x1024_S1024x3072_S512x3072_1_0_0_1_n_n.rhsIdx (ix2 r j) ((ValueIdx.contrEquiv1 dot_S512x1024_S1024x3072_S512x3072_1_0_0_1_n_n 1024 rfl rfl).symm k) = ix2 k j := funext fun a => Fin.ext (by
    match a with
    | ⟨0, _⟩ => exact (rhs_qkv_0 _ _).trans hk
    | ⟨1, _⟩ => exact rhs_qkv_1 _ _)
  rw [el, er]

/-- The q third: columns 0 … 1023 of the product. -/
theorem qkv_pay2_apply (r : Fin 512) (h : Fin 1024) :
    k0_pay2 (F := Ideal) x0 x1 (ix2 r h) = ∑ d : Fin 1024, x0 (ix2 r d) * x1 (ix2 d (⟨h.val, by omega⟩ : Fin 3072)) := by
  unfold k0_pay2
  rw [extractStridedSlice_apply _ _ _ (ix2 r h) (ix2 r (⟨h.val, by omega⟩ : Fin 3072)) (fun a => by
    match a with
    | ⟨0, _⟩ => show r.val = 0 + r.val; omega
    | ⟨1, _⟩ => show h.val = 0 + h.val; omega)]
  exact qkv_pay1_apply x0 x1 r _

/-- The k third: columns 1024 … 2047 of the product. -/
theorem qkv_pay3_apply (r : Fin 512) (h : Fin 1024) :
    k0_pay3 (F := Ideal) x0 x1 (ix2 r h) = ∑ d : Fin 1024, x0 (ix2 r d) * x1 (ix2 d (⟨h.val + 1024, by omega⟩ : Fin 3072)) := by
  unfold k0_pay3
  rw [extractStridedSlice_apply _ _ _ (ix2 r h) (ix2 r (⟨h.val + 1024, by omega⟩ : Fin 3072)) (fun a => by
    match a with
    | ⟨0, _⟩ => show r.val = 0 + r.val; omega
    | ⟨1, _⟩ => show h.val + 1024 = 1024 + h.val; omega)]
  exact qkv_pay1_apply x0 x1 r _

/-- The v third: columns 2048 … 3071 of the product. -/
theorem qkv_pay4_apply (r : Fin 512) (h : Fin 1024) :
    k0_pay4 (F := Ideal) x0 x1 (ix2 r h) = ∑ d : Fin 1024, x0 (ix2 r d) * x1 (ix2 d (⟨h.val + 2048, by omega⟩ : Fin 3072)) := by
  unfold k0_pay4
  rw [extractStridedSlice_apply _ _ _ (ix2 r h) (ix2 r (⟨h.val + 2048, by omega⟩ : Fin 3072)) (fun a => by
    match a with
    | ⟨0, _⟩ => show r.val = 0 + r.val; omega
    | ⟨1, _⟩ => show h.val + 2048 = 2048 + h.val; omega)]
  exact qkv_pay1_apply x0 x1 r _

end Product

section Value0

variable (V : (c : Dev nD) → (b : Ref sig .tc) → Buf (Elt Ideal) ((c : Thread nD τ).loc b))

/-- The rows of x as the first call finds them. -/
abbrev xArr (c : Dev nD) : S4096x1024.Idx → EReal := V c main_arg0
/-- The concatenated weights as the first call finds them. -/
abbrev wArr (c : Dev nD) : S1024x3072.Idx → EReal := V c main_v1
/-- The three result arrays of the first call after its last write-back. -/
abbrev qOut (c : Dev nD) : S4096x1024.Idx → EReal := (dat0 (F := Ideal) V c).arrAt 2 cfg0.N
abbrev kOut (c : Dev nD) : S4096x1024.Idx → EReal := (dat0 (F := Ideal) V c).arrAt 3 cfg0.N
abbrev vOut (c : Dev nD) : S4096x1024.Idx → EReal := (dat0 (F := Ideal) V c).arrAt 4 cfg0.N

/-! ## From blocks to the arrays -/

/-- The grid has eight points. -/
theorem pt0_lt (t : Fin cfg0.N) : t.val < 8 :=
  lt_of_lt_of_eq t.isLt (show cfg0.N = 8 from N_0)

/-- The index maps, decided over the grid: the blocks of x and of the three results at point t are row block t,
    column block 0; the weights' block is always (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of x at point t is rows 512·t … 512·t + 511 of x. -/
theorem xblk0_apply (c : Dev nD) (t : Fin cfg0.N) (r : Fin 512) (d : Fin 1024) :
    (iblk0 V c 0 t : S512x1024.Idx → EReal) (ix2 r d)
      = xArr V c (ix2 (⟨512 * t.val + r.val, by have := pt0_lt t; omega⟩ : Fin 4096) d) := by
  have e := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * r.val = 512 * t.val + r.val; rw [e.1]; omega
  | ⟨1, _⟩ => show win0_0.index t (1 : Fin 2) * 1024 + 1 * d.val = d.val; rw [e.2.1]; omega

/-- The block of the weights at every point is the whole array. -/
theorem wblk0_eq (c : Dev nD) (t : Fin cfg0.N) : (iblk0 V c 1 t : S1024x3072.Idx → EReal) = wArr V c := by
  have e := idx_facts0 t
  funext y
  unfold iblk0
  rw [View.read_apply]
  show V c main_v1 _ = V c main_v1 y
  refine congrArg (V c main_v1) (funext fun a => Fin.ext ?_)
  match a with
  | ⟨0, _⟩ => show win0_1.index t (0 : Fin 2) * 1024 + 1 * (y 0).val = (y 0).val; rw [e.2.2.1]; omega
  | ⟨1, _⟩ => show win0_1.index t (1 : Fin 2) * 3072 + 1 * (y 1).val = (y 1).val; rw [e.2.2.2.1]; omega

/-! ### The q array (window 2) -/

/-- What the q array ends holding: entry (p, h) is row p of x against column h of the weights. -/
def qThird (x : S4096x1024.Idx → EReal) (w : S1024x3072.Idx → EReal) : S4096x1024.Idx → EReal :=
  fun i => ∑ d : Fin 1024, x (ix2 (i 0) d) * w (ix2 d (⟨(i 1).val, by have := idx2_lt1 i; omega⟩ : Fin 3072))

/-- One grid point, over blocks named by variables: if the first block is rows 512·t … 512·t + 511 of x and the second
    is the whole weights, the q third of their product at (r, h) is the q array's entry (512·t + r, h). -/
theorem qThird_point (x : S4096x1024.Idx → EReal) (w : S1024x3072.Idx → EReal)
    (b0 : S512x1024.Idx → EReal) (b1 : S1024x3072.Idx → EReal) (tv : Nat) (htv : tv < 8)
    (hb0 : ∀ (r : Fin 512) (d : Fin 1024), b0 (ix2 r d) = x (ix2 (⟨512 * tv + r.val, by omega⟩ : Fin 4096) d))
    (hb1 : b1 = w) (r : Fin 512) (h : Fin 1024) :
    k0_pay2 (F := Ideal) b0 b1 (ix2 r h) = qThird x w (ix2 (⟨512 * tv + r.val, by omega⟩ : Fin 4096) h) := by
  rw [qkv_pay2_apply, hb1]
  show _ = ∑ d : Fin 1024, x (ix2 (⟨512 * tv + r.val, by omega⟩ : Fin 4096) d) * w (ix2 d (⟨h.val, by omega⟩ : Fin 3072))
  exact Finset.sum_congr rfl fun d _ => by rw [hb0]

/-- What point t writes back to the q array is block t of `qThird` of the arrays the call finds. -/
theorem flushed0_2_eq (c : Dev nD) (t : Fin cfg0.N) :
    (dat0 (F := Ideal) V c).flushed 2 t
      = ((cfg0.win 2).blk t).view.read (Elt Ideal) (qThird (xArr V c) (wArr V c)) := by
  show (cfg0.win 2).cut (grid0.coords t) ((dat0 (F := Ideal) V c).after 2 t) = _
  rw [after0_2]
  unfold out0_2
  have e := idx_facts0 t
  funext j
  obtain ⟨r, h, rfl⟩ : ∃ (r : Fin 512) (h : Fin 1024), j = ix2 r h := ⟨j 0, j 1, eq_ix2 j⟩
  refine (qThird_point (xArr V c) (wArr V c) (iblk0 V c 0 t) (iblk0 V c 1 t) t.val (pt0_lt t)
    (fun r d => xblk0_apply V c t r d) (wblk0_eq V c t) r h).trans ?_
  show qThird (xArr V c) (wArr V c) _ = qThird (xArr V c) (wArr V c) (((cfg0.win 2).blk t).view.emb (ix2 r h))
  refine congrArg (qThird (xArr V c) (wArr V c)) (funext fun a => Fin.ext ?_)
  match a with
  | ⟨0, _⟩ => show 512 * t.val + r.val = win0_2.index t (0 : Fin 2) * 512 + 1 * r.val; rw [e.2.2.2.2.1]; omega
  | ⟨1, _⟩ => show h.val = win0_2.index t (1 : Fin 2) * 1024 + 1 * h.val; rw [e.2.2.2.2.2.1]; omega

/-- An index is in point t's block of the q array iff each coordinate is in the block's range on its axis. -/
theorem mem_blk0_2 (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v2_0).slice (win0_2.rect t)).set ↔ _
  rw [View.set_slice_whole, Rect.mem_set_unit]
  exact Iff.rfl

/-- Every entry of the q array is written: row p by the point p / 512. -/
theorem cover0_2 (i : S4096x1024.Idx) :
    ∃ t : Fin cfg0.N, (cfg0.win 2).flush t = true ∧ i ∈ ((cfg0.win 2).blk t).view.set := by
  have hi0 : (i 0).val < 4096 := idx2_lt0 i
  have hi1 : (i 1).val < 1024 := idx2_lt1 i
  obtain ⟨t, ht⟩ : ∃ t : Fin cfg0.N, t.val = (i 0).val / 512 :=
    ⟨⟨(i 0).val / 512, by rw [show cfg0.N = 8 from N_0]; omega⟩, rfl⟩
  have e := idx_facts0 t
  refine ⟨t, flush0_2 t, ?_⟩
  rw [mem_blk0_2]
  intro a
  match a with
  | ⟨0, _⟩ =>
    show win0_2.index t (0 : Fin 2) * 512 ≤ (i 0).val ∧ (i 0).val < win0_2.index t (0 : Fin 2) * 512 + 512
    rw [e.2.2.2.2.1, ht]; omega
  | ⟨1, _⟩ =>
    show win0_2.index t (1 : Fin 2) * 1024 ≤ (i 1).val ∧ (i 1).val < win0_2.index t (1 : Fin 2) * 1024 + 1024
    rw [e.2.2.2.2.2.1]; omega

/-- So the q array after the call's last write-back is `qThird` of the arrays the call finds. -/
theorem qOut_eq_third (c : Dev nD) : qOut V c = qThird (xArr V c) (wArr V c) :=
  (dat0 (F := Ideal) V c).arrAt_eq_of_cover 2 (qThird (xArr V c) (wArr V c)) (fun t _ => flushed0_2_eq V c t)
    (cover0_2)

/-! ### The k array (window 3) -/

/-- What the k array ends holding: entry (p, h) is row p of x against column 1024 + h of the weights. -/
def kThird (x : S4096x1024.Idx → EReal) (w : S1024x3072.Idx → EReal) : S4096x1024.Idx → EReal :=
  fun i => ∑ d : Fin 1024, x (ix2 (i 0) d) * w (ix2 d (⟨(i 1).val + 1024, by have := idx2_lt1 i; omega⟩ : Fin 3072))

/-- One grid point, over blocks named by variables: if the first block is rows 512·t … 512·t + 511 of x and the second
    is the whole weights, the k third of their product at (r, h) is the k array's entry (512·t + r, h). -/
theorem kThird_point (x : S4096x1024.Idx → EReal) (w : S1024x3072.Idx → EReal)
    (b0 : S512x1024.Idx → EReal) (b1 : S1024x3072.Idx → EReal) (tv : Nat) (htv : tv < 8)
    (hb0 : ∀ (r : Fin 512) (d : Fin 1024), b0 (ix2 r d) = x (ix2 (⟨512 * tv + r.val, by omega⟩ : Fin 4096) d))
    (hb1 : b1 = w) (r : Fin 512) (h : Fin 1024) :
    k0_pay3 (F := Ideal) b0 b1 (ix2 r h) = kThird x w (ix2 (⟨512 * tv + r.val, by omega⟩ : Fin 4096) h) := by
  rw [qkv_pay3_apply, hb1]
  show _ = ∑ d : Fin 1024, x (ix2 (⟨512 * tv + r.val, by omega⟩ : Fin 4096) d) * w (ix2 d (⟨h.val + 1024, by omega⟩ : Fin 3072))
  exact Finset.sum_congr rfl fun d _ => by rw [hb0]

/-- What point t writes back to the k array is block t of `kThird` of the arrays the call finds. -/
theorem flushed0_3_eq (c : Dev nD) (t : Fin cfg0.N) :
    (dat0 (F := Ideal) V c).flushed 3 t
      = ((cfg0.win 3).blk t).view.read (Elt Ideal) (kThird (xArr V c) (wArr V c)) := by
  show (cfg0.win 3).cut (grid0.coords t) ((dat0 (F := Ideal) V c).after 3 t) = _
  rw [after0_3]
  unfold out0_3
  have e := idx_facts0 t
  funext j
  obtain ⟨r, h, rfl⟩ : ∃ (r : Fin 512) (h : Fin 1024), j = ix2 r h := ⟨j 0, j 1, eq_ix2 j⟩
  refine (kThird_point (xArr V c) (wArr V c) (iblk0 V c 0 t) (iblk0 V c 1 t) t.val (pt0_lt t)
    (fun r d => xblk0_apply V c t r d) (wblk0_eq V c t) r h).trans ?_
  show kThird (xArr V c) (wArr V c) _ = kThird (xArr V c) (wArr V c) (((cfg0.win 3).blk t).view.emb (ix2 r h))
  refine congrArg (kThird (xArr V c) (wArr V c)) (funext fun a => Fin.ext ?_)
  match a with
  | ⟨0, _⟩ => show 512 * t.val + r.val = win0_3.index t (0 : Fin 2) * 512 + 1 * r.val; rw [e.2.2.2.2.2.2.1]; omega
  | ⟨1, _⟩ => show h.val = win0_3.index t (1 : Fin 2) * 1024 + 1 * h.val; rw [e.2.2.2.2.2.2.2.1]; omega

/-- An index is in point t's block of the k array iff each coordinate is in the block's range on its axis. -/
theorem mem_blk0_3 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2_1).slice (win0_3.rect t)).set ↔ _
  rw [View.set_slice_whole, Rect.mem_set_unit]
  exact Iff.rfl

/-- Every entry of the k array is written: row p by the point p / 512. -/
theorem cover0_3 (i : S4096x1024.Idx) :
    ∃ t : Fin cfg0.N, (cfg0.win 3).flush t = true ∧ i ∈ ((cfg0.win 3).blk t).view.set := by
  have hi0 : (i 0).val < 4096 := idx2_lt0 i
  have hi1 : (i 1).val < 1024 := idx2_lt1 i
  obtain ⟨t, ht⟩ : ∃ t : Fin cfg0.N, t.val = (i 0).val / 512 :=
    ⟨⟨(i 0).val / 512, by rw [show cfg0.N = 8 from N_0]; omega⟩, rfl⟩
  have e := idx_facts0 t
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    rw [e.2.2.2.2.2.2.1, ht]; omega
  | ⟨1, _⟩ =>
    show win0_3.index t (1 : Fin 2) * 1024 ≤ (i 1).val ∧ (i 1).val < win0_3.index t (1 : Fin 2) * 1024 + 1024
    rw [e.2.2.2.2.2.2.2.1]; omega

/-- So the k array after the call's last write-back is `kThird` of the arrays the call finds. -/
theorem kOut_eq_third (c : Dev nD) : kOut V c = kThird (xArr V c) (wArr V c) :=
  (dat0 (F := Ideal) V c).arrAt_eq_of_cover 3 (kThird (xArr V c) (wArr V c)) (fun t _ => flushed0_3_eq V c t)
    (cover0_3)

/-! ### The v array (window 4) -/

/-- What the v array ends holding: entry (p, h) is row p of x against column 2048 + h of the weights. -/
def vThird (x : S4096x1024.Idx → EReal) (w : S1024x3072.Idx → EReal) : S4096x1024.Idx → EReal :=
  fun i => ∑ d : Fin 1024, x (ix2 (i 0) d) * w (ix2 d (⟨(i 1).val + 2048, by have := idx2_lt1 i; omega⟩ : Fin 3072))

/-- One grid point, over blocks named by variables: if the first block is rows 512·t … 512·t + 511 of x and the second
    is the whole weights, the v third of their product at (r, h) is the v array's entry (512·t + r, h). -/
theorem vThird_point (x : S4096x1024.Idx → EReal) (w : S1024x3072.Idx → EReal)
    (b0 : S512x1024.Idx → EReal) (b1 : S1024x3072.Idx → EReal) (tv : Nat) (htv : tv < 8)
    (hb0 : ∀ (r : Fin 512) (d : Fin 1024), b0 (ix2 r d) = x (ix2 (⟨512 * tv + r.val, by omega⟩ : Fin 4096) d))
    (hb1 : b1 = w) (r : Fin 512) (h : Fin 1024) :
    k0_pay4 (F := Ideal) b0 b1 (ix2 r h) = vThird x w (ix2 (⟨512 * tv + r.val, by omega⟩ : Fin 4096) h) := by
  rw [qkv_pay4_apply, hb1]
  show _ = ∑ d : Fin 1024, x (ix2 (⟨512 * tv + r.val, by omega⟩ : Fin 4096) d) * w (ix2 d (⟨h.val + 2048, by omega⟩ : Fin 3072))
  exact Finset.sum_congr rfl fun d _ => by rw [hb0]

/-- What point t writes back to the v array is block t of `vThird` of the arrays the call finds. -/
theorem flushed0_4_eq (c : Dev nD) (t : Fin cfg0.N) :
    (dat0 (F := Ideal) V c).flushed 4 t
      = ((cfg0.win 4).blk t).view.read (Elt Ideal) (vThird (xArr V c) (wArr V c)) := by
  show (cfg0.win 4).cut (grid0.coords t) ((dat0 (F := Ideal) V c).after 4 t) = _
  rw [after0_4]
  unfold out0_4
  have e := idx_facts0 t
  funext j
  obtain ⟨r, h, rfl⟩ : ∃ (r : Fin 512) (h : Fin 1024), j = ix2 r h := ⟨j 0, j 1, eq_ix2 j⟩
  refine (vThird_point (xArr V c) (wArr V c) (iblk0 V c 0 t) (iblk0 V c 1 t) t.val (pt0_lt t)
    (fun r d => xblk0_apply V c t r d) (wblk0_eq V c t) r h).trans ?_
  show vThird (xArr V c) (wArr V c) _ = vThird (xArr V c) (wArr V c) (((cfg0.win 4).blk t).view.emb (ix2 r h))
  refine congrArg (vThird (xArr V c) (wArr V c)) (funext fun a => Fin.ext ?_)
  match a with
  | ⟨0, _⟩ => show 512 * t.val + r.val = win0_4.index t (0 : Fin 2) * 512 + 1 * r.val; rw [e.2.2.2.2.2.2.2.2.1]; omega
  | ⟨1, _⟩ => show h.val = win0_4.index t (1 : Fin 2) * 1024 + 1 * h.val; rw [e.2.2.2.2.2.2.2.2.2]; omega

/-- An index is in point t's block of the v array iff each coordinate is in the block's range on its axis. -/
theorem mem_blk0_4 (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2_2).slice (win0_4.rect t)).set ↔ _
  rw [View.set_slice_whole, Rect.mem_set_unit]
  exact Iff.rfl

/-- Every entry of the v array is written: row p by the point p / 512. -/
theorem cover0_4 (i : S4096x1024.Idx) :
    ∃ t : Fin cfg0.N, (cfg0.win 4).flush t = true ∧ i ∈ ((cfg0.win 4).blk t).view.set := by
  have hi0 : (i 0).val < 4096 := idx2_lt0 i
  have hi1 : (i 1).val < 1024 := idx2_lt1 i
  obtain ⟨t, ht⟩ : ∃ t : Fin cfg0.N, t.val = (i 0).val / 512 :=
    ⟨⟨(i 0).val / 512, by rw [show cfg0.N = 8 from N_0]; omega⟩, rfl⟩
  have e := idx_facts0 t
  refine ⟨t, flush0_4 t, ?_⟩
  rw [mem_blk0_4]
  intro a
  match a with
  | ⟨0, _⟩ =>
    show win0_4.index t (0 : Fin 2) * 512 ≤ (i 0).val ∧ (i 0).val < win0_4.index t (0 : Fin 2) * 512 + 512
    rw [e.2.2.2.2.2.2.2.2.1, ht]; omega
  | ⟨1, _⟩ =>
    show win0_4.index t (1 : Fin 2) * 1024 ≤ (i 1).val ∧ (i 1).val < win0_4.index t (1 : Fin 2) * 1024 + 1024
    rw [e.2.2.2.2.2.2.2.2.2]; omega

/-- So the v array after the call's last write-back is `vThird` of the arrays the call finds. -/
theorem vOut_eq_third (c : Dev nD) : vOut V c = vThird (xArr V c) (wArr V c) :=
  (dat0 (F := Ideal) V c).arrAt_eq_of_cover 4 (vThird (xArr V c) (wArr V c)) (fun t _ => flushed0_4_eq V c t)
    (cover0_4)

/-! ## The three arrays at an index -/

theorem final0_2 (c : Dev nD) (p : Fin 4096) (h : Fin 1024) :
    qOut V c (ix2 p h) = ∑ d : Fin 1024, xArr V c (ix2 p d) * wArr V c (ix2 d (⟨h.val, by omega⟩ : Fin 3072)) := by
  exact congrFun (qOut_eq_third V c) (ix2 p h)

theorem final0_3 (c : Dev nD) (p : Fin 4096) (h : Fin 1024) :
    kOut V c (ix2 p h) = ∑ d : Fin 1024, xArr V c (ix2 p d) * wArr V c (ix2 d (⟨h.val + 1024, by omega⟩ : Fin 3072)) := by
  exact congrFun (kOut_eq_third V c) (ix2 p h)

theorem final0_4 (c : Dev nD) (p : Fin 4096) (h : Fin 1024) :
    vOut V c (ix2 p h) = ∑ d : Fin 1024, xArr V c (ix2 p d) * wArr V c (ix2 d (⟨h.val + 2048, by omega⟩ : Fin 3072)) := by
  exact congrFun (vOut_eq_third V c) (ix2 p h)

end Value0

end Cert.KernelIdeal.Hand

end
-- ==== Proof.LibOnlineSoftmax.lean ====
/-
  The online softmax over a finite set of positions, on the extended reals.

  Positions `p` carry a score `x p`, an additive mask `w p` and a value `v p`, all real numbers (as extended
  reals). For a finite set `S` of positions the state of a streaming softmax is the triple
    M = max over S of x,   L = ∑ p ∈ S, e^(x p + w p - M),   A = ∑ p ∈ S, e^(x p + w p - M) · v p,
  with `M = ⊥` and `L = A = 0` on the empty set. Taking in a further nonempty set `T` of positions, disjoint
  from `S`, the new maximum is `M' = max M (max over T of x)` and the old sums are rescaled by `e^(M - M')`:
    L' = e^(M - M') · L + ∑ p ∈ T, e^(x p + w p - M'),
  and likewise for `A`. The rescaling is exact: `e^(M - M') · e^(x + w - M) = e^(x + w - M')` for real
  numbers, and on the empty set `e^(⊥ - M') · 0 = 0`. So the triple after `S ∪ T` is again the state of
  `S ∪ T`, whatever the order and grouping in which positions arrive.
-/
import Idealize.ShloMosaic.PureOps.Ideal

noncomputable section

open scoped BigOperators

namespace Cert.Lib.OnlineSoftmax

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

variable {P : Type*} [DecidableEq P]

/-- The maximum of real scores over a nonempty set is a real number. -/
theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

/-- The weight of position `p` against the maximum `M`. -/
def wt (x w : P → EReal) (M : EReal) (p : P) : EReal := Ideal.exp (x p + w p - M)

/-- The maximum after taking in `T`. -/
theorem step_max (x : P → EReal) (S T : Finset P) : max (S.sup x) (T.sup x) = (S ∪ T).sup x := by
  exact Finset.sup_union.symm

/-- The weighted sum after taking in `T`: the old sum rescaled plus the new positions' terms. -/
theorem step_acc (x w v : P → EReal) (hx : ∀ p, IsReal (x p)) (hw : ∀ p, IsReal (w p)) (hv : ∀ p, IsReal (v p))
    (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical
  -- real witnesses for the scores, the masks and the values
  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  · -- nothing seen so far: the old sum is empty, and `e^(⊥ - M') · 0 = 0`
    simp
  · -- both maxima are real numbers, and the identity is one of real numbers
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)
    -- `e^(M - M') · e^(x + w - M) = e^(x + w - M')`
    rw [← mul_assoc, ← Real.exp_add]
    congr 2
    ring

/-- The sum of weights after taking in `T`. -/
theorem step_sum (x w : P → EReal) (hx : ∀ p, IsReal (x p)) (hw : ∀ p, IsReal (w p))
    (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by
  -- the weighted sum with every value equal to one
  have h := step_acc x w (fun _ => (1 : EReal)) hx hw (fun _ => ⟨1, EReal.coe_one.symm⟩) S T hST hT
  simp only [mul_one] at h
  exact h

/-- Against a real maximum the mask may be added before or after the maximum is taken off. -/
theorem wt_comm (x w : P → EReal) (M : EReal) (p : P) (hx : IsReal (x p)) (hw : IsReal (w p)) (hM : IsReal M) :
    wt x w M p = Ideal.exp (x p - M + w p) := by
  obtain ⟨a, ha⟩ := hx
  obtain ⟨b, hb⟩ := hw
  obtain ⟨m, rfl⟩ := hM
  rw [wt, ha, hb, ← EReal.coe_add, ← EReal.coe_sub, ← EReal.coe_sub, ← EReal.coe_add]
  congr 2
  ring

end Cert.Lib.OnlineSoftmax

end
-- ==== Proof.StreamFold.lean ====
/-
  One row of streaming attention over 4096 keys taken in as eight blocks of 512.

  The state is (M, L, A): the largest score seen, the sum of e^(score − M) over the keys seen, and the same sum
  weighted by the keys' values. A block of 512 scores sB with values vB updates it to
      M' = max M (max sB),   L' = e^(M − M')·L + ∑ e^(sB − M'),   A' = e^(M − M')·A + ∑ e^(sB − M')·vB,
  starting from (⊥, 0, 0). After all eight blocks, for real scores and values, M is the row's largest score,
  L ≥ 1 (the largest score contributes e^0), so a floor of 10⁻²⁰ under L changes nothing, and A / L is the
  softmax-weighted sum of the values.
-/
import Idealize.ShloMosaic.PureOps.Ideal
import proofs.«400698_j61830349193486_3_alg».proof.Proof.LibOnlineSoftmax

noncomputable section

open scoped BigOperators

namespace Cert.Stream

open Idealize.ShloMosaic

/-- The floor under the sum of weights. -/
def eps : EReal := ((1 / 100000000000000000000 : ℝ) : EReal)

/-- Key `jj` of block `k`. -/
def col (k : Fin 8) (jj : Fin 512) : Fin 4096 := ⟨512 * k.val + jj.val, by have := k.isLt; have := jj.isLt; omega⟩

/-- The update by one block. -/
def updB (sB vB : Fin 512 → EReal) (st : EReal × EReal × EReal) : EReal × EReal × EReal :=
  (max st.1 (Finset.univ.sup sB),
   Ideal.exp (st.1 - max st.1 (Finset.univ.sup sB)) * st.2.1 + ∑ jj : Fin 512, Ideal.exp (sB jj - max st.1 (Finset.univ.sup sB)),
   Ideal.exp (st.1 - max st.1 (Finset.univ.sup sB)) * st.2.2 + ∑ jj : Fin 512, Ideal.exp (sB jj - max st.1 (Finset.univ.sup sB)) * vB jj)

/-- The state after the first `n` blocks. -/
def foldB (s v : Fin 4096 → EReal) : ℕ → EReal × EReal × EReal
  | 0 => (⊥, 0, 0)
  | n + 1 => if h : n < 8 then updB (fun jj => s (col ⟨n, h⟩ jj)) (fun jj => v (col ⟨n, h⟩ jj)) (foldB s v n) else foldB s v n

theorem foldB_succ (s v : Fin 4096 → EReal) (k : Fin 8) :
    foldB s v (k.val + 1) = updB (fun jj => s (col k jj)) (fun jj => v (col k jj)) (foldB s v k.val) := by
  rw [foldB, dif_pos k.isLt]

open Cert.Lib.OnlineSoftmax

/-! ### The keys of a block, and of the first `n` blocks -/

/-- The keys of block `k`. -/
def blk (k : Fin 8) : Finset (Fin 4096) := Finset.univ.image (col k)

/-- Within a block distinct places are distinct keys. -/
theorem col_injective (k : Fin 8) : Function.Injective (col k) := by
  intro a b h
  have h' := congrArg Fin.val h
  simp only [col] at h'
  exact Fin.ext (by omega)

/-- The largest score of a block, read by place or by key. -/
theorem sup_blk (s : Fin 4096 → EReal) (k : Fin 8) :
    Finset.univ.sup (fun jj => s (col k jj)) = (blk k).sup s := by
  rw [blk, Finset.sup_image]
  rfl

/-- A sum over a block, read by place or by key. -/
theorem sum_blk (f : Fin 4096 → EReal) (k : Fin 8) :
    ∑ jj : Fin 512, f (col k jj) = ∑ j ∈ blk k, f j := by
  rw [blk, Finset.sum_image (fun a _ b _ h => col_injective k h)]

theorem blk_nonempty (k : Fin 8) : (blk k).Nonempty :=
  ⟨col k ⟨0, by norm_num⟩, Finset.mem_image_of_mem _ (Finset.mem_univ _)⟩

/-- Block `k` is the keys `512·k ≤ j < 512·k + 512`. -/
theorem mem_blk (k : Fin 8) (j : Fin 4096) :
    j ∈ blk k ↔ 512 * k.val ≤ j.val ∧ j.val < 512 * k.val + 512 := by
  constructor
  · intro h
    obtain ⟨jj, _, rfl⟩ := Finset.mem_image.mp h
    have := jj.isLt
    simp only [col]
    omega
  · rintro ⟨h1, h2⟩
    exact Finset.mem_image.mpr
      ⟨⟨j.val - 512 * k.val, by omega⟩, Finset.mem_univ _, Fin.ext (by simp only [col]; omega)⟩

/-- The keys of the first `n` blocks: `j < 512·n`. -/
def seen (n : ℕ) : Finset (Fin 4096) := Finset.univ.filter (fun j => j.val < 512 * n)

theorem seen_zero : seen 0 = ∅ := by
  ext j
  simp [seen]

theorem seen_succ (k : Fin 8) : seen (k.val + 1) = seen k.val ∪ blk k := by
  ext j
  simp only [seen, Finset.mem_union, Finset.mem_filter, Finset.mem_univ, true_and, mem_blk]
  omega

theorem seen_disjoint (k : Fin 8) : Disjoint (seen k.val) (blk k) := by
  rw [Finset.disjoint_left]
  intro j hj hb
  simp only [seen, Finset.mem_filter, Finset.mem_univ, true_and] at hj
  rw [mem_blk] at hb
  omega

theorem seen_eight : seen 8 = Finset.univ := by
  ext j
  have := j.isLt
  simp only [seen, Finset.mem_filter, Finset.mem_univ, true_and, iff_true]
  omega

/-! ### The state of a set of keys, and the update by a block -/

/-- The state of the set `S` of keys: its largest score, its sum of weights, its weighted sum of values. -/
def stateOf (s v : Fin 4096 → EReal) (S : Finset (Fin 4096)) : EReal × EReal × EReal :=
  (S.sup s, ∑ j ∈ S, Ideal.exp (s j - S.sup s), ∑ j ∈ S, Ideal.exp (s j - S.sup s) * v j)

/-- Taking in block `k`, disjoint from `S`, turns the state of `S` into the state of `S ∪ blk k`:
    the rescaling law of the online softmax with the zero mask. -/
theorem updB_stateOf (s v : Fin 4096 → EReal) (hs : ∀ j, ∃ r : ℝ, s j = (r : EReal))
    (hv : ∀ j, ∃ r : ℝ, v j = (r : EReal)) (S : Finset (Fin 4096)) (k : Fin 8) (hd : Disjoint S (blk k)) :
    updB (fun jj => s (col k jj)) (fun jj => v (col k jj)) (stateOf s v S) = stateOf s v (S ∪ blk k) := by
  have hmax : max (S.sup s) (Finset.univ.sup (fun jj => s (col k jj))) = (S ∪ blk k).sup s := by
    rw [sup_blk, step_max]
  have hsum := step_sum s (fun _ => 0) hs (fun _ => ⟨0, EReal.coe_zero.symm⟩) S (blk k) hd (blk_nonempty k)
  have hacc := step_acc s (fun _ => 0) v hs (fun _ => ⟨0, EReal.coe_zero.symm⟩) hv S (blk k) hd (blk_nonempty k)
  simp only [wt, add_zero] at hsum hacc
  have e1 : ∑ jj : Fin 512, Ideal.exp (s (col k jj) - (S ∪ blk k).sup s)
      = ∑ j ∈ blk k, Ideal.exp (s j - (S ∪ blk k).sup s) :=
    sum_blk (fun j => Ideal.exp (s j - (S ∪ blk k).sup s)) k
  have e2 : ∑ jj : Fin 512, Ideal.exp (s (col k jj) - (S ∪ blk k).sup s) * v (col k jj)
      = ∑ j ∈ blk k, Ideal.exp (s j - (S ∪ blk k).sup s) * v j :=
    sum_blk (fun j => Ideal.exp (s j - (S ∪ blk k).sup s) * v j) k
  unfold updB stateOf
  simp only [hmax]
  rw [e1, e2, hsum, hacc]

/-- After the first `n` blocks the state is the state of their keys. -/
theorem foldB_eq_stateOf (s v : Fin 4096 → EReal) (hs : ∀ j, ∃ r : ℝ, s j = (r : EReal))
    (hv : ∀ j, ∃ r : ℝ, v j = (r : EReal)) : ∀ n : ℕ, n ≤ 8 → foldB s v n = stateOf s v (seen n)
  | 0, _ => by
    rw [seen_zero]
    simp [foldB, stateOf]
  | n + 1, h => by
    have hn : n < 8 := h
    have hstep := foldB_succ s v ⟨n, hn⟩
    simp only at hstep
    rw [hstep, foldB_eq_stateOf s v hs hv n (by omega), seen_succ ⟨n, hn⟩]
    exact updB_stateOf s v hs hv (seen n) ⟨n, hn⟩ (seen_disjoint ⟨n, hn⟩)

/-! ### The floor never binds, and the quotient is the weighted sum -/

/-- For real scores whose largest value `m` is attained, the sum of weights is at least one, the floor leaves it
    alone, and dividing the weighted sum by it divides each weight. -/
theorem quotient_real (sr vr : Fin 4096 → ℝ) (m : ℝ) (hm : ∃ j, sr j = m) :
    Ideal.div (∑ j, ((Real.exp (sr j - m) : ℝ) : EReal) * (vr j : EReal))
        (max (∑ j, ((Real.exp (sr j - m) : ℝ) : EReal)) eps)
      = ∑ j, Ideal.div ((Real.exp (sr j - m) : ℝ) : EReal) (∑ j', ((Real.exp (sr j' - m) : ℝ) : EReal))
          * (vr j : EReal) := by
  obtain ⟨j0, hj0⟩ := hm
  -- the sum of weights as a real number, at least the weight one of a key with the largest score
  have hl1 : (1 : ℝ) ≤ ∑ j, Real.exp (sr j - m) := by
    have h0 : Real.exp (sr j0 - m) = 1 := by rw [hj0, sub_self, Real.exp_zero]
    calc (1 : ℝ) = Real.exp (sr j0 - m) := h0.symm
      _ ≤ ∑ j, Real.exp (sr j - m) :=
        Finset.single_le_sum (f := fun j => Real.exp (sr j - m)) (fun j _ => (Real.exp_pos _).le)
          (Finset.mem_univ j0)
  have hL : ∑ j, ((Real.exp (sr j - m) : ℝ) : EReal) = ((∑ j, Real.exp (sr j - m) : ℝ) : EReal) :=
    (coe_finset_sum _ _).symm
  have hmax : max ((∑ j, Real.exp (sr j - m) : ℝ) : EReal) eps = ((∑ j, Real.exp (sr j - m) : ℝ) : EReal) := by
    apply max_eq_left
    rw [eps, EReal.coe_le_coe_iff]
    have : (1 / 100000000000000000000 : ℝ) ≤ 1 := by norm_num
    linarith
  have hne : (∑ j, Real.exp (sr j - m)) ≠ 0 := by
    intro h0
    rw [h0] at hl1
    linarith
  rw [hL, hmax]
  simp only [Ideal.div_coe hne, ← EReal.coe_mul, ← coe_finset_sum]
  rw [EReal.coe_eq_coe_iff, Finset.sum_mul]
  refine Finset.sum_congr rfl (fun j _ => ?_)
  ring

/-- After the eight blocks the floored quotient is the softmax-weighted sum of the values. -/
theorem foldB_eight (s v : Fin 4096 → EReal) (hs : ∀ j, ∃ r : ℝ, s j = (r : EReal)) (hv : ∀ j, ∃ r : ℝ, v j = (r : EReal)) :
    Ideal.div (foldB s v 8).2.2 (max (foldB s v 8).2.1 eps)
      = ∑ j : Fin 4096, Ideal.div (Ideal.exp (s j - Finset.univ.sup s)) (∑ j' : Fin 4096, Ideal.exp (s j' - Finset.univ.sup s)) * v j := by
  rw [foldB_eq_stateOf s v hs hv 8 le_rfl, seen_eight]
  simp only [stateOf]
  -- the largest score is a real number, attained at some key
  obtain ⟨m, hm⟩ := sup_isReal s hs Finset.univ Finset.univ_nonempty
  obtain ⟨j0, _, hj0⟩ := Finset.exists_mem_eq_sup Finset.univ Finset.univ_nonempty s
  -- real witnesses for the scores and the values
  choose sr hsr using hs
  choose vr hvr using hv
  obtain rfl : s = fun j => (sr j : EReal) := funext hsr
  obtain rfl : v = fun j => (vr j : EReal) := funext hvr
  rw [hm] at hj0
  have hj0' : sr j0 = m := (EReal.coe_eq_coe_iff.mp hj0).symm
  simp only [hm, ← EReal.coe_sub, Ideal.exp_coe]
  exact quotient_real sr vr m ⟨j0, hj0'⟩

end Cert.Stream

end
-- ==== Proof.KIPay1.lean ====
/-
  The attention kernel's arithmetic at the ideal instance, read one entry at a time: the block of scores, the new row
  maximum, the two rescaling exponentials, the new sum of weights, the new weighted sum of value rows, the
  final quotient, and the reset values.
-/
import proofs.«400698_j61830349193486_3_alg».proof.Proof.Gen.KernelIdeal.Skeleton
import proofs.«400698_j61830349193486_3_alg».proof.Proof.Spec
import proofs.«400698_j61830349193486_3_alg».proof.Proof.StreamFold
import proofs.«400698_j61830349193486_3_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Idealize.ShloMosaic Idealize.ShloMosaic.ValueIdx Cert.KernelIdeal Cert.KernelIdeal.Gen

namespace Pay1

/-! ## Layout operations of a column read at an entry -/

section Layout

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two literal words and the two named constants -/

/-- The score scale: the word of 2⁻⁵. -/
theorem ofBits_inv32 : Ideal.ofBits .f32 0x3D000000#32 = ((1 / 32 : ℝ) : EReal) := by
  simp [Ideal.ofBits, Ideal.ieee, -EReal.coe_mul]; norm_num

/-- The word of −∞, from which a row maximum is folded. -/
theorem ofBits_neg_inf : Ideal.ofBits .f32 0xFF800000#32 = ⊥ := by
  simp [Ideal.ofBits, Ideal.ieee]

/-- The reset value of the running maximum is ⊥ by the table of named constants. -/
theorem named_neg_big : Named.named (F := Ideal) κ "neg_big" (φ := .f32) 0xFF333332#32 = ⊥ :=
  IdealRules.named_const.ideal_named_scalar _ _ _ _ rfl

/-- The floor under the sum of weights is 10⁻²⁰ by the table of named constants. -/
theorem named_eps : Named.named (F := Ideal) κ "inv_100000000000000000000" (φ := .f32) 0x1E3CE508#32 = Cert.Stream.eps :=
  IdealRules.named_const.ideal_named_scalar _ _ _ _ rfl

/-! ## The two lane reductions of a block of 512 columns -/

/-- The source index over row r with column k inserted is (r, k). -/
theorem lift_row (r : Fin 1024) (k : Fin 512) :
    reduces_S1024x512_S1024.lift (ix1 r) k = ix2 r k :=
  funext fun c => Fin.ext (match c with | ⟨0, _⟩ => rfl | ⟨1, _⟩ => rfl)

/-- The lane sum of a block at row r is the sum over its 512 columns. -/
theorem rowSum_apply (x : FVec Ideal S1024x512 .f32) (r : Fin 1024) :
    multiReduction (F := Ideal) .add [1] S1024 x 0x00000000#32 reduces_S1024x512_S1024 (.inl rfl) rfl (ix1 r)
      = ∑ jj : Fin 512, x (ix2 r jj) := by
  refine (Ideal.multiReduction_add_single x _ reduces_S1024x512_S1024 _ _ (ix1 r)).trans ?_
  exact Finset.sum_congr rfl fun k _ => congrArg x (lift_row r k)

/-- The lane maximum of a block at row r is the supremum over its 512 columns: a fold of max from ⊥. -/
theorem rowMax_apply (x : FVec Ideal S1024x512 .f32) (r : Fin 1024) :
    multiReduction (F := Ideal) .maximumf [1] S1024 x 0xFF800000#32 reduces_S1024x512_S1024 (.inl rfl) rfl (ix1 r)
      = Finset.univ.sup fun jj : Fin 512 => x (ix2 r jj) := by
  refine (Ideal.multiReduction_maximumf_single x _ reduces_S1024x512_S1024 _ _ (ix1 r)).trans ?_
  rw [Ideal.ofBits_def, ofBits_neg_inf]
  refine (Cert.Lib.OnlineSoftmax.fold_max_bot_eq_sup _ _).trans ?_
  exact Finset.sup_congr rfl fun k _ => congrArg x (lift_row r k)

/-! ## The two products into a zero accumulator -/

/-- Queries times transposed keys: the left operand is read at the output's row. -/
theorem lhs_qk_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- … and at the contraction position on its second axis. -/
theorem lhs_qk_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand is read at the contraction position on its first axis -/
theorem rhs_qk_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and at the output's column. -/
theorem rhs_qk_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a [1024, 1024] block with a [1024, 512] block into zero, at (r, jj): the sum over the 1024 shared
    positions of the row of the one times the column of the other. -/
theorem matmul_qk_apply (a : FVec Ideal S1024x1024 .bf16) (b : FVec Ideal S1024x512 .bf16) (r : Fin 1024) (jj : Fin 512) :
    matmul (F := Ideal) dot_S1024x1024_S1024x512_S1024x512_1_0_0_1_n_n none a b (constant (F := Ideal) S1024x512 .f32 0x00000000#32) (ix2 r jj)
      = ∑ h : Fin 1024, a (ix2 r h) * b (ix2 h jj) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r jj) ((ValueIdx.contrEquiv1 dot_S1024x1024_S1024x512_S1024x512_1_0_0_1_n_n 1024 rfl rfl).symm k) = ix2 r k := funext fun c => Fin.ext (by
    match c with
    | ⟨0, _⟩ => exact lhs_qk_0 _ _
    | ⟨1, _⟩ => exact (lhs_qk_1 _ _).trans hk)
  have er : dot_S1024x1024_S1024x512_S1024x512_1_0_0_1_n_n.rhsIdx (ix2 r jj) ((ValueIdx.contrEquiv1 dot_S1024x1024_S1024x512_S1024x512_1_0_0_1_n_n 1024 rfl rfl).symm k) = ix2 k jj := funext fun c => Fin.ext (by
    match c with
    | ⟨0, _⟩ => exact (rhs_qk_0 _ _).trans hk
    | ⟨1, _⟩ => exact rhs_qk_1 _ _)
  rw [el, er]

/-- Weights times values: the left operand is read at the output's row. -/
theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- … and at the contraction position on its second axis. -/
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand is read at the contraction position on its first axis -/
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and at the output's column. -/
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a [1024, 512] block with a [512, 1024] block into zero, at (r, c): the sum over the 512 shared
    positions. -/
theorem matmul_pv_apply (a : FVec Ideal S1024x512 .bf16) (b : FVec Ideal S512x1024 .bf16) (r c : Fin 1024) :
    matmul (F := Ideal) dot_S1024x512_S512x1024_S1024x1024_1_0_0_1_n_n none a b (constant (F := Ideal) S1024x1024 .f32 0x00000000#32) (ix2 r c)
      = ∑ jj : Fin 512, a (ix2 r jj) * b (ix2 jj c) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r c) ((ValueIdx.contrEquiv1 dot_S1024x512_S512x1024_S1024x1024_1_0_0_1_n_n 512 rfl rfl).symm k) = ix2 r k := funext fun d => Fin.ext (by
    match d with
    | ⟨0, _⟩ => exact lhs_pv_0 _ _
    | ⟨1, _⟩ => exact (lhs_pv_1 _ _).trans hk)
  have er : dot_S1024x512_S512x1024_S1024x1024_1_0_0_1_n_n.rhsIdx (ix2 r c) ((ValueIdx.contrEquiv1 dot_S1024x512_S512x1024_S1024x1024_1_0_0_1_n_n 512 rfl rfl).symm k) = ix2 k c := funext fun d => Fin.ext (by
    match d with
    | ⟨0, _⟩ => exact (rhs_pv_0 _ _).trans hk
    | ⟨1, _⟩ => exact rhs_pv_1 _ _)
  rw [el, er]

end Pay1

open Pay1

section Payloads

variable (q : S1024x1024.Idx → EReal) (k : S512x1024.Idx → EReal) (v : S512x1024.Idx → EReal) (mk : S1024x512.Idx → EReal)
  (mS mS' lS : S1024x1.Idx → EReal) (aS : S1024x1024.Idx → EReal)

theorem pay9_apply (r : Fin 1024) (jj : Fin 512) :
    k1_pay9 (F := Ideal) q k mk (ix2 r jj)
      = (∑ h : Fin 1024, q (ix2 r h) * k (ix2 jj h)) * ((1 / 32 : ℝ) : EReal) + mk (ix2 r jj) * Cert.Spec.maskWord := by
  simp only [k1_pay9, shapeCast_self, addf_apply, mulf_apply, broadcast_apply, matmul_qk_apply, Ideal.ofBits_def, ofBits_inv32]
  unfold Cert.Spec.maskWord
  refine congrArg (fun s : EReal => s * ((1 / 32 : ℝ) : EReal) + mk (ix2 r jj) * Ideal.ofBits .f32 0xCE6E6B28#32) ?_
  exact Finset.sum_congr rfl fun h _ => congrArg (q (ix2 r h) * ·) (transpose_ix2_apply k _ h jj)

theorem pay10_apply (r : Fin 1024) :
    k1_pay10 (F := Ideal) q k mk mS (ix2 r (0 : Fin 1))
      = max (mS (ix2 r (0 : Fin 1))) (Finset.univ.sup fun jj : Fin 512 => k1_pay9 (F := Ideal) q k mk (ix2 r jj)) := by
  simp only [k1_pay10, maximumf_apply, shapeCast_a_a1_apply]
  exact congrArg (max (mS (ix2 r (0 : Fin 1)))) (rowMax_apply _ r)

theorem pay11_apply (r : Fin 1024) :
    k1_pay11 (F := Ideal) q k mk mS mS' (ix2 r (0 : Fin 1))
      = Ideal.exp (mS' (ix2 r (0 : Fin 1)) - k1_pay10 (F := Ideal) q k mk mS (ix2 r (0 : Fin 1))) := by
  simp only [k1_pay11, exp, subf_apply, Ideal.exp_def]

theorem pay12_apply (r : Fin 1024) (jj : Fin 512) :
    k1_pay12 (F := Ideal) q k mk mS (ix2 r jj)
      = Ideal.exp (k1_pay9 (F := Ideal) q k mk (ix2 r jj) - k1_pay10 (F := Ideal) q k mk mS (ix2 r (0 : Fin 1))) := by
  simp only [k1_pay12, exp, subf_apply, Ideal.exp_def, broadcastTo_a1_ab_apply]

theorem pay13_apply (r : Fin 1024) :
    k1_pay13 (F := Ideal) q k mk mS mS' lS (ix2 r (0 : Fin 1))
      = k1_pay11 (F := Ideal) q k mk mS mS' (ix2 r (0 : Fin 1)) * lS (ix2 r (0 : Fin 1))
        + ∑ jj : Fin 512, k1_pay12 (F := Ideal) q k mk mS (ix2 r jj) := by
  simp only [k1_pay13, addf_apply, mulf_apply, shapeCast_a_a1_apply]
  exact congrArg (k1_pay11 (F := Ideal) q k mk mS mS' (ix2 r (0 : Fin 1)) * lS (ix2 r (0 : Fin 1)) + ·) (rowSum_apply _ r)

theorem pay2_apply (a : S1024x1.Idx → EReal) (pw : S1024x512.Idx → EReal) (r c : Fin 1024) :
    k1_pay2 (F := Ideal) v a pw aS (ix2 r c)
      = a (ix2 r (0 : Fin 1)) * aS (ix2 r c) + ∑ jj : Fin 512, pw (ix2 r jj) * v (ix2 jj c) := by
  simp only [k1_pay2, shapeCast_self, addf_apply, mulf_apply, broadcastTo_a1_ab_apply, matmul_pv_apply, truncf_apply]

theorem pay1_eq (x : S1024x1.Idx → EReal) : k1_pay1 (F := Ideal) x = x := by
  unfold k1_pay1
  exact shapeCast_self _ _

theorem pay3_eq (x : S1024x1.Idx → EReal) : k1_pay3 (F := Ideal) x = x := by
  unfold k1_pay3
  exact shapeCast_self _ _

theorem pay8_eq : k1_pay8 (F := Ideal) v = v := by
  unfold k1_pay8
  exact shapeCast_self _ _

theorem pay4_apply (r c : Fin 1024) :
    k1_pay4 (F := Ideal) lS aS (ix2 r c) = Ideal.div (aS (ix2 r c)) (max (lS (ix2 r (0 : Fin 1))) Cert.Stream.eps) := by
  simp only [k1_pay4, divf_apply, broadcastTo_a1_ab_apply, maximumf_apply, broadcast_apply, named_eps]

theorem pay5_apply (r : Fin 1024) : k1_pay5 (F := Ideal) (ix2 r (0 : Fin 1)) = ⊥ := by
  simp only [k1_pay5, shapeCast_self, broadcast_apply, named_neg_big]

theorem pay6_apply (r : Fin 1024) : k1_pay6 (F := Ideal) (ix2 r (0 : Fin 1)) = 0 := by
  simp only [k1_pay6, shapeCast_self, broadcast_apply, Ideal.ofBits_def, Ideal.ofBits_zero_f32]

theorem pay7_apply (r c : Fin 1024) : k1_pay7 (F := Ideal) (ix2 r c) = 0 := by
  simp only [k1_pay7, shapeCast_self, broadcast_apply, Ideal.ofBits_def, Ideal.ofBits_zero_f32]

end Payloads

end Cert.KernelIdeal.Hand

end
-- ==== Proof.KIVal1.lean ====
/-
  What the second pallas_call leaves in its result array, at the ideal instance and for real-valued operands:
  the softmax of the scores of a query row against all 4096 keys, applied to the value rows — the eight blocks
  of 512 keys taken in one after the other by the streaming update give the same sums as all keys at once.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIR1Data
import proofs.«400698_j61830349193486_3_alg».proof.Proof.KIPay1
import proofs.«400698_j61830349193486_3_alg».proof.Proof.StreamFold
import proofs.«400698_j61830349193486_3_alg».proof.Proof.LibOnlineSoftmax
import proofs.«400698_j61830349193486_3_alg».proof.Proof.Spec
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

section Value1

variable (V : (c : Dev nD) → (b : Ref sig .tc) → Buf (Elt Ideal) ((c : Thread nD τ).loc b))

/-- The projected queries, keys and values and the mask as the second call finds them, and its result array
    after its last write-back. -/
abbrev qArr (c : Dev nD) : S4096x1024.Idx → EReal := V c main_v2_0
abbrev kArr (c : Dev nD) : S4096x1024.Idx → EReal := V c main_v2_1
abbrev vArr (c : Dev nD) : S4096x1024.Idx → EReal := V c main_v2_2
abbrev mArr (c : Dev nD) : S4096x4096.Idx → EReal := V c main_arg1
abbrev oOut (c : Dev nD) : S4096x1024.Idx → EReal := (dat1 (F := Ideal) V c).arrAt 4 cfg1.N

/-! ## Where each window's block sits in its array -/

/-- The index maps over the grid: point t has query block t / 8 and key block t % 8; the query and output windows
    move with the query block, the key and value windows with the key block, the mask window with both. -/
theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0 :=
  (by decide +kernel : ∀ t : Fin grid1.N, _)

/-- The four input blocks at a grid point, at their literal types. -/
abbrev qBlk (c : Dev nD) (t : Fin cfg1.N) : S1024x1024.Idx → EReal := iblk1 (F := Ideal) V c 0 t
abbrev kBlk (c : Dev nD) (t : Fin cfg1.N) : S512x1024.Idx → EReal := iblk1 (F := Ideal) V c 1 t
abbrev vBlk (c : Dev nD) (t : Fin cfg1.N) : S512x1024.Idx → EReal := iblk1 (F := Ideal) V c 2 t
abbrev mBlk (c : Dev nD) (t : Fin cfg1.N) : S1024x512.Idx → EReal := iblk1 (F := Ideal) V c 3 t

/-- Row r of the query block at point t is row 1024·(t / 8) + r of the queries. -/
theorem qBlk_apply (c : Dev nD) (t : Fin cfg1.N) (r h : Fin 1024) (p : Fin 4096) (hp : p.val = 1024 * (t.val / 8) + r.val) :
    qBlk V c t (ix2 r h) = qArr V c (ix2 p h) := by
  obtain ⟨e0, e1, -⟩ := idx1_facts t
  unfold qBlk iblk1
  rw [View.read_apply]
  show V c main_v2_0 _ = V c main_v2_0 _
  congr 1
  funext a
  apply Fin.ext
  match a with
  | ⟨0, _⟩ => show win1_0.index t 0 * 1024 + 1 * r.val = p.val; rw [e0, hp]; omega
  | ⟨1, _⟩ => show win1_0.index t 1 * 1024 + 1 * h.val = h.val; rw [e1]; omega

/-- Row jj of the key block at point t is row 512·(t % 8) + jj of the keys. -/
theorem kBlk_apply (c : Dev nD) (t : Fin cfg1.N) (jj : Fin 512) (h : Fin 1024) (jc : Fin 4096) (hj : jc.val = 512 * (t.val % 8) + jj.val) :
    kBlk V c t (ix2 jj h) = kArr V c (ix2 jc h) := by
  obtain ⟨-, -, e0, e1, -⟩ := idx1_facts t
  unfold kBlk iblk1
  rw [View.read_apply]
  show V c main_v2_1 _ = V c main_v2_1 _
  congr 1
  funext a
  apply Fin.ext
  match a with
  | ⟨0, _⟩ => show win1_1.index t 0 * 512 + 1 * jj.val = jc.val; rw [e0, hj]; omega
  | ⟨1, _⟩ => show win1_1.index t 1 * 1024 + 1 * h.val = h.val; rw [e1]; omega

/-- Row jj of the value block at point t is row 512·(t % 8) + jj of the values. -/
theorem vBlk_apply (c : Dev nD) (t : Fin cfg1.N) (jj : Fin 512) (h : Fin 1024) (jc : Fin 4096) (hj : jc.val = 512 * (t.val % 8) + jj.val) :
    vBlk V c t (ix2 jj h) = vArr V c (ix2 jc h) := by
  obtain ⟨-, -, -, -, e0, e1, -⟩ := idx1_facts t
  unfold vBlk iblk1
  rw [View.read_apply]
  show V c main_v2_2 _ = V c main_v2_2 _
  congr 1
  funext a
  apply Fin.ext
  match a with
  | ⟨0, _⟩ => show win1_2.index t 0 * 512 + 1 * jj.val = jc.val; rw [e0, hj]; omega
  | ⟨1, _⟩ => show win1_2.index t 1 * 1024 + 1 * h.val = h.val; rw [e1]; omega

/-- Entry (r, jj) of the mask block at point t is entry (1024·(t / 8) + r, 512·(t % 8) + jj) of the mask. -/
theorem mBlk_apply (c : Dev nD) (t : Fin cfg1.N) (r : Fin 1024) (jj : Fin 512) (p jc : Fin 4096)
    (hp : p.val = 1024 * (t.val / 8) + r.val) (hj : jc.val = 512 * (t.val % 8) + jj.val) :
    mBlk V c t (ix2 r jj) = mArr V c (ix2 p jc) := by
  obtain ⟨-, -, -, -, -, -, e0, e1, -⟩ := idx1_facts t
  unfold mBlk iblk1
  rw [View.read_apply]
  show V c main_arg1 _ = V c main_arg1 _
  congr 1
  funext a
  apply Fin.ext
  match a with
  | ⟨0, _⟩ => show win1_3.index t 0 * 1024 + 1 * r.val = p.val; rw [e0, hp]; omega
  | ⟨1, _⟩ => show win1_3.index t 1 * 512 + 1 * jj.val = jc.val; rw [e1, hj]; omega

/-! ## One grid point on one query row -/

/-- The carried arrays read at query row r and output column j: the row's running maximum, its running sum of
    weights, and entry j of its running weighted sum of value rows. -/
def rowSt (s : St1 Ideal) (r j : Fin 1024) : EReal × EReal × EReal :=
  ((s.1 : S1024x1.Idx → EReal) (ix2 r (0 : Fin 1)), (s.2.1 : S1024x1.Idx → EReal) (ix2 r (0 : Fin 1)),
    (s.2.2 : S1024x1024.Idx → EReal) (ix2 r j))

/-- One grid point, read at a row and a column, is the streaming update by the block's 512 scores of the row
    (inner products with the key rows, scaled, plus the masked word) and the 512 entries of the value column. -/
theorem step1_row (q : S1024x1024.Idx → EReal) (k v : S512x1024.Idx → EReal) (mk : S1024x512.Idx → EReal)
    (s : St1 Ideal) (r j : Fin 1024) :
    rowSt (step1 (F := Ideal) q k v mk s) r j
      = Cert.Stream.updB
          (fun jj : Fin 512 => (∑ h : Fin 1024, q (ix2 r h) * k (ix2 jj h)) * ((1 / 32 : ℝ) : EReal) + mk (ix2 r jj) * Cert.Spec.maskWord)
          (fun jj : Fin 512 => v (ix2 jj j)) (rowSt s r j) := by
  obtain ⟨mS, lS, aS⟩ := s
  unfold rowSt step1 Cert.Stream.updB
  dsimp only
  simp only [pay3_eq, pay1_eq, pay8_eq, pay10_apply, pay13_apply, pay2_apply, pay11_apply, pay12_apply, pay9_apply]

/-! ## The eight key blocks of a query block, one after the other -/

/-- Row p of the scores against all 4096 keys, and column j of the values. -/
abbrev sRow (c : Dev nD) (p : Fin 4096) : Fin 4096 → EReal :=
  Cert.Spec.scoreOf (Cert.Spec.mat (qArr V c)) (Cert.Spec.mat (kArr V c)) (Cert.Spec.mat (mArr V c)) p
abbrev vCol (c : Dev nD) (j : Fin 1024) : Fin 4096 → EReal := fun jc => Cert.Spec.mat (vArr V c) jc j

/-- The grid point with query block t / 8 and key block kv = t % 8, read at row r of the block (row p of the array)
    and column j: the streaming update by the scores of row p against keys 512·kv … 512·kv + 511 and the
    entries of value column j at those keys. -/
theorem point_row (c : Dev nD) (t : Fin cfg1.N) (kv : Fin 8) (hkv : t.val % 8 = kv.val) (s : St1 Ideal) (r j : Fin 1024)
    (p : Fin 4096) (hp : p.val = 1024 * (t.val / 8) + r.val) :
    rowSt (step1 (F := Ideal) (iblk1 V c 0 t) (iblk1 V c 1 t) (iblk1 V c 2 t) (iblk1 V c 3 t) s) r j
      = Cert.Stream.updB (fun jj => sRow V c p (Cert.Stream.col kv jj)) (fun jj => vCol V c j (Cert.Stream.col kv jj))
          (rowSt s r j) := by
  refine (step1_row (qBlk V c t) (kBlk V c t) (vBlk V c t) (mBlk V c t) s r j).trans ?_
  have hcol : ∀ jj : Fin 512, (Cert.Stream.col kv jj).val = 512 * (t.val % 8) + jj.val := fun jj => by
    show 512 * kv.val + jj.val = _
    rw [hkv]
  congr 1
  · funext jj
    show _ = (∑ h : Fin 1024, qArr V c (ix2 p h) * kArr V c (ix2 (Cert.Stream.col kv jj) h)) * ((1 / 32 : ℝ) : EReal)
        + mArr V c (ix2 p (Cert.Stream.col kv jj)) * Cert.Spec.maskWord
    rw [mBlk_apply V c t r jj p _ hp (hcol jj)]
    congr 2
    refine Finset.sum_congr rfl fun h _ => ?_
    rw [qBlk_apply V c t r h p hp, kBlk_apply V c t jj h _ (hcol jj)]
  · funext jj
    exact vBlk_apply V c t jj j _ (hcol jj)

theorem stAt1_congr (c : Dev nD) {n m : ℕ} (h : n = m) (hn : n < cfg1.N) (hm : m < cfg1.N) :
    stAt1 (F := Ideal) V c n hn = stAt1 (F := Ideal) V c m hm := by
  subst h; rfl

/-- After key block n of query block b the carried arrays, read at row r and column j, are the abstract state after
    n + 1 blocks of the row's scores and the column's values. -/
theorem fold_row (c : Dev nD) (b : Fin 4) (r j : Fin 1024) (p : Fin 4096) (hp : p.val = 1024 * b.val + r.val) :
    ∀ (n : ℕ) (hn : n < 8) (ht : 8 * b.val + n < cfg1.N),
      rowSt (stAt1 (F := Ideal) V c (8 * b.val + n) ht) r j = Cert.Stream.foldB (sRow V c p) (vCol V c j) (n + 1)
  | 0, hn, ht => by
    have hmod : (⟨8 * b.val + 0, ht⟩ : Fin cfg1.N).val % 8 = 0 := by show (8 * b.val + 0) % 8 = 0; omega
    have e := stAt1_reset (F := Ideal) V c ⟨8 * b.val + 0, ht⟩ hmod
    rw [show stAt1 (F := Ideal) V c (8 * b.val + 0) ht = _ from e]
    rw [point_row V c ⟨8 * b.val + 0, ht⟩ ⟨0, by omega⟩ (by show (8 * b.val + 0) % 8 = 0; omega) init1 r j p
      (by show p.val = 1024 * ((8 * b.val + 0) / 8) + r.val; rw [hp]; congr 2; omega)]
    rw [Cert.Stream.foldB_succ (sRow V c p) (vCol V c j) ⟨0, by omega⟩]
    congr 1
    show ((k1_pay5 (F := Ideal) : S1024x1.Idx → EReal) (ix2 r (0 : Fin 1)), (k1_pay6 (F := Ideal) : S1024x1.Idx → EReal) (ix2 r (0 : Fin 1)),
      (k1_pay7 (F := Ideal) : S1024x1024.Idx → EReal) (ix2 r j)) = (⊥, 0, 0)
    rw [pay5_apply, pay6_apply, pay7_apply]
  | n + 1, hn, ht => by
    have hmod : ¬ (⟨8 * b.val + (n + 1), ht⟩ : Fin cfg1.N).val % 8 = 0 := by
      show ¬ (8 * b.val + (n + 1)) % 8 = 0; omega
    have e := stAt1_carry (F := Ideal) V c ⟨8 * b.val + (n + 1), ht⟩ hmod
    rw [show stAt1 (F := Ideal) V c (8 * b.val + (n + 1)) ht = _ from e]
    rw [point_row V c ⟨8 * b.val + (n + 1), ht⟩ ⟨n + 1, hn⟩ (by show (8 * b.val + (n + 1)) % 8 = n + 1; omega) _ r j p
      (by show p.val = 1024 * ((8 * b.val + (n + 1)) / 8) + r.val; rw [hp]; congr 2; omega)]
    rw [stAt1_congr V c (show (⟨8 * b.val + (n + 1), ht⟩ : Fin cfg1.N).val - 1 = 8 * b.val + n from by
      show 8 * b.val + (n + 1) - 1 = _; omega) _ (by omega)]
    rw [fold_row c b r j p hp n (by omega) (by omega)]
    exact (Cert.Stream.foldB_succ (sRow V c p) (vCol V c j) ⟨n + 1, hn⟩).symm

/-! ## The result array -/

/-- The word both programs multiply the mask by is a real number (minus ten to the ninth). -/
theorem maskWord_real : ∃ r : ℝ, Cert.Spec.maskWord = (r : EReal) :=
  ⟨-1000000000, by unfold Cert.Spec.maskWord; simp [Ideal.ofBits, Ideal.ieee, -EReal.coe_mul]; norm_num⟩

/-- Scores of real queries, keys and mask are real: sums and products of reals. -/
theorem sRow_real (c : Dev nD) (hq : Cert.Spec.AllReal (qArr V c)) (hk : Cert.Spec.AllReal (kArr V c))
    (hm : Cert.Spec.AllReal (mArr V c)) (p jc : Fin 4096) : ∃ r : ℝ, sRow V c p jc = (r : EReal) := by
  show Cert.Lib.OnlineSoftmax.IsReal ((∑ h : Fin 1024, qArr V c (ix2 p h) * kArr V c (ix2 jc h)) * ((1 / 32 : ℝ) : EReal)
    + mArr V c (ix2 p jc) * Cert.Spec.maskWord)
  exact Cert.Lib.OnlineSoftmax.IsReal.add
    (Cert.Lib.OnlineSoftmax.IsReal.mul
      (Cert.Lib.OnlineSoftmax.IsReal.sum _ _ fun h _ => Cert.Lib.OnlineSoftmax.IsReal.mul (hq _) (hk _)) ⟨1 / 32, rfl⟩)
    (Cert.Lib.OnlineSoftmax.IsReal.mul (hm _) maskWord_real)

/-- What the last key block of a query block stores into the output block, read at row r (row p of the array) and
    column j: the floored quotient of the carried sums after all eight key blocks, which is the softmax of row p of
    the scores applied to column j of the values. -/
theorem out_entry (c : Dev nD) (hq : Cert.Spec.AllReal (qArr V c)) (hk : Cert.Spec.AllReal (kArr V c))
    (hv : Cert.Spec.AllReal (vArr V c)) (hm : Cert.Spec.AllReal (mArr V c))
    (t : Fin cfg1.N) (h7 : t.val % 8 = 7) (r j : Fin 1024) (p : Fin 4096) (hp : p.val = 1024 * (t.val / 8) + r.val) :
    (out1 (stAt1 (F := Ideal) V c t.val t.isLt) : S1024x1024.Idx → EReal) (ix2 r j)
      = Cert.Spec.attn (Cert.Spec.scoreOf (Cert.Spec.mat (qArr V c)) (Cert.Spec.mat (kArr V c)) (Cert.Spec.mat (mArr V c)))
          (Cert.Spec.mat (vArr V c)) p j := by
  have hN : cfg1.N = 32 := N_1
  have hb : t.val / 8 < 4 := by have := t.isLt; omega
  have hfold : rowSt (stAt1 (F := Ideal) V c t.val t.isLt) r j = Cert.Stream.foldB (sRow V c p) (vCol V c j) 8 :=
    (congrArg (fun s => rowSt s r j)
      (stAt1_congr V c (show t.val = 8 * (⟨t.val / 8, hb⟩ : Fin 4).val + 7 from by show t.val = 8 * (t.val / 8) + 7; omega) t.isLt
        (by show 8 * (t.val / 8) + 7 < cfg1.N; have := t.isLt; omega))).trans
      (fold_row V c ⟨t.val / 8, hb⟩ r j p hp 7 (by omega) _)
  have h1 : ((stAt1 (F := Ideal) V c t.val t.isLt).2.1 : S1024x1.Idx → EReal) (ix2 r (0 : Fin 1))
      = (Cert.Stream.foldB (sRow V c p) (vCol V c j) 8).2.1 := congrArg (fun x => x.2.1) hfold
  have h2 : ((stAt1 (F := Ideal) V c t.val t.isLt).2.2 : S1024x1024.Idx → EReal) (ix2 r j)
      = (Cert.Stream.foldB (sRow V c p) (vCol V c j) 8).2.2 := congrArg (fun x => x.2.2) hfold
  unfold out1
  rw [pay4_apply, h1, h2,
    Cert.Stream.foldB_eight (sRow V c p) (vCol V c j) (fun jc => sRow_real V c hq hk hm p jc) (fun jc => hv _)]
  rfl

/-- The specification's attention of the arrays the call finds, as an array. -/
abbrev G1 (c : Dev nD) : S4096x1024.Idx → EReal := fun i =>
  Cert.Spec.attn (Cert.Spec.scoreOf (Cert.Spec.mat (qArr V c)) (Cert.Spec.mat (kArr V c)) (Cert.Spec.mat (mArr V c)))
    (Cert.Spec.mat (vArr V c)) (i 0) (i 1)

/-- What a point with key block 7 writes back is its block of that array: rows 1024·(t / 8) … of all columns. -/
theorem flushed1_eq (c : Dev nD) (hq : Cert.Spec.AllReal (qArr V c)) (hk : Cert.Spec.AllReal (kArr V c))
    (hv : Cert.Spec.AllReal (vArr V c)) (hm : Cert.Spec.AllReal (mArr V c))
    (t : Fin cfg1.N) (hf : (cfg1.win 4).flush t = true) :
    (dat1 (F := Ideal) V c).flushed 4 t = ((cfg1.win 4).blk t).view.read (Elt Ideal) (G1 V c) := by
  have h7 : t.val % 8 = 7 := (flush1_4 t).mp hf
  have hN : cfg1.N = 32 := N_1
  obtain ⟨-, -, -, -, -, -, -, -, e0, e1⟩ := idx1_facts t
  show (cfg1.win 4).cut (grid1.coords t) ((dat1 (F := Ideal) V c).after 4 t) = _
  rw [after1_4]
  have key : ∀ y : S1024x1024.Idx, (out1 (stAt1 (F := Ideal) V c t.val t.isLt) : S1024x1024.Idx → EReal) y
      = G1 V c (((cfg1.win 4).blk t).view.emb y) := by
    intro y
    obtain ⟨r, j, rfl⟩ : ∃ (r j : Fin 1024), y = ix2 r j := ⟨y 0, y 1, eq_ix2 y⟩
    have hb : t.val / 8 < 4 := by have := t.isLt; omega
    refine (out_entry V c hq hk hv hm t h7 r j ⟨1024 * (t.val / 8) + r.val, by have := r.isLt; omega⟩ rfl).trans ?_
    show Cert.Spec.attn _ _ _ j = Cert.Spec.attn _ _ ((((cfg1.win 4).blk t).view.emb (ix2 r j)) 0) ((((cfg1.win 4).blk t).view.emb (ix2 r j)) 1)
    congr 1
    · apply Fin.ext
      show 1024 * (t.val / 8) + r.val = win1_4.index t 0 * 1024 + 1 * r.val
      rw [e0]; omega
    · apply Fin.ext
      show j.val = win1_4.index t 1 * 1024 + 1 * j.val
      rw [e1]; omega
  funext y
  exact key y

/-- Every entry of the result array is in the block of a point that writes back: row p in that of query block
    p / 1024 at key block 7. -/
theorem cover1 (i : S4096x1024.Idx) :
    ∃ t : Fin cfg1.N, (cfg1.win 4).flush t = true ∧ i ∈ ((cfg1.win 4).blk t).view.set := by
  have hN : cfg1.N = 32 := N_1
  have hi0 : (i 0).val < 4096 := (i 0).isLt
  have hi1 : (i 1).val < 1024 := (i 1).isLt
  obtain ⟨t, ht⟩ : ∃ t : Fin cfg1.N, t.val = 8 * ((i 0).val / 1024) + 7 := ⟨⟨8 * ((i 0).val / 1024) + 7, by omega⟩, rfl⟩
  obtain ⟨-, -, -, -, -, -, -, -, e0, e1⟩ := idx1_facts t
  refine ⟨t, (flush1_4 t).mpr (by omega), ?_⟩
  show i ∈ ((View.whole main_v3).slice (win1_4.rect t)).set
  rw [View.set_slice_whole, Rect.mem_set_unit]
  intro a
  match a with
  | ⟨0, _⟩ =>
    show win1_4.index t 0 * 1024 ≤ (i 0).val ∧ (i 0).val < win1_4.index t 0 * 1024 + 1024
    rw [e0, ht]; omega
  | ⟨1, _⟩ =>
    show win1_4.index t 1 * 1024 ≤ (i 1).val ∧ (i 1).val < win1_4.index t 1 * 1024 + 1024
    rw [e1]; omega

theorem final1 (c : Dev nD)
    (hq : Cert.Spec.AllReal (qArr V c)) (hk : Cert.Spec.AllReal (kArr V c))
    (hv : Cert.Spec.AllReal (vArr V c)) (hm : Cert.Spec.AllReal (mArr V c))
    (p : Fin 4096) (j : Fin 1024) :
    oOut V c (ix2 p j)
      = Cert.Spec.attn (Cert.Spec.scoreOf (Cert.Spec.mat (qArr V c)) (Cert.Spec.mat (kArr V c)) (Cert.Spec.mat (mArr V c)))
          (Cert.Spec.mat (vArr V c)) p j :=
  congrFun ((dat1 (F := Ideal) V c).arrAt_eq_of_cover 4 (G1 V c) (fun t hf => flushed1_eq V c hq hk hv hm t hf) cover1)
    (ix2 p j)

end Value1

end Cert.KernelIdeal.Hand

end
-- ==== Proof.LibNary3.lean ====
/-
  A host operation over a literal family of three references — a concatenation of three operands — read at its
  result buffer: the operation's function applied to each operand's contents AT ITS OWN REFERENCE.  The general result
  lemma states the operands' contents under a binder (`fun k => F ↑(xs k)`), where `xs k` is no literal reference and
  no further result lemma can rewrite what lies beneath it; named one by one the operands' contents are rewritten in
  turn, and the fold through a list of operations goes on past the concatenation.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- The result of an operation over the three literal references `![x, a, b]`, at its result buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp` pass over a fold of operations uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

end
-- ==== Proof.LibDense.lean ====
/-
  Dense layers at the ideal values, read entry by entry.

  An affine layer sends an n × k array x, a k × m array w and a row of m biases β to the n × m array whose entry (a, c) is
  ∑ j, x(a, j) · w(j, c) + β(c); a rectifier takes the maximum with 0 entry by entry. On the extended reals both are
  what a kernel's matrix product into a zero accumulator plus a broadcast one-row bias computes, and what a host
  dot_general plus a twice-broadcast bias vector computes (the sums are over the contracted coordinate; neither spelling has
  another term). Three arrays laid side by side along the columns and contracted against one weight array give the sum of
  the three partial products against the weight array's three row bands: a finite sum over k₁ + k₂ + k₃ terms split at k₁
  and k₁ + k₂, which needs only that addition is associative and commutative, so it holds at the infinities too.
  Entry (a, c) of a layer depends on row a of its input only, so a network of such layers applied to a block of rows
  agrees with the network applied to the whole array on the rows of the block.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

/-- An n × m array of extended reals. -/
abbrev Mat (n m : Nat) : Type := (⟨2, ![n, m]⟩ : Shape).Idx → EReal

section Layers
variable {n k m : Nat}

/-- The affine layer: entry (a, c) is ∑ j, x(a, j) · w(j, c) + β(c). -/
def aff (x : Mat n k) (w : Mat k m) (β : Fin m → EReal) : Mat n m :=
  fun i => ∑ j : Fin k, x (ix2 (i 0) j) * w (ix2 j (i 1)) + β (i 1)

theorem aff_apply (x : Mat n k) (w : Mat k m) (β : Fin m → EReal) (a : Fin n) (c : Fin m) :
    aff x w β (ix2 a c) = ∑ j : Fin k, x (ix2 a j) * w (ix2 j c) + β c := rfl

/-- The rectifier: the maximum with 0, entry by entry. -/
def relu (y : Mat n m) : Mat n m := fun i => max (y i) 0

theorem relu_apply (y : Mat n m) (i : (⟨2, ![n, m]⟩ : Shape).Idx) : relu y i = max (y i) 0 := rfl

/-- A kernel's layer: the matrix product accumulated into a zero splat, plus a one-row bias broadcast down the rows. -/
theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

/-- A kernel's matrix product into a zero splat, with no bias: the sums alone. -/
theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

/-- A vector laid out as one row reads, at (0, c), the vector at c. -/
theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

/-- The host's layer: the dot_general plus the bias vector laid out as a row and broadcast down the rows. -/
theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

/-- A kernel's rectifier: the maximum with a splat of the zero word. -/
theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

/-- The host's rectifier: the maximum with the zero constant broadcast to the array's shape. -/
theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- At the ideal values a narrowing change of format is the identity on the whole array. -/
theorem truncf_id {s : Shape} {φ ψ : FTy} (a : FVec Ideal s φ) (h : ψ.bits < φ.bits) :
    (truncf ψ a h : s.Idx → EReal) = a := rfl

end Layers

/-! ## Three arrays side by side, contracted against one weight array -/

section Split
variable {n k₁ k₂ k₃ K m : Nat}

/-- Three arrays of k₁, k₂ and k₃ columns laid side by side. -/
def cat3 (hK : k₁ + k₂ + k₃ = K) (x₁ : Mat n k₁) (x₂ : Mat n k₂) (x₃ : Mat n k₃) : Mat n K := fun i =>
  if h₁ : (i 1).val < k₁ then x₁ (ix2 (i 0) ⟨(i 1).val, h₁⟩)
  else if h₂ : (i 1).val < k₁ + k₂ then x₂ (ix2 (i 0) ⟨(i 1).val - k₁, by omega⟩)
  else x₃ (ix2 (i 0) ⟨(i 1).val - (k₁ + k₂), by have := idx2_lt1 i; omega⟩)

theorem cat3_apply (hK : k₁ + k₂ + k₃ = K) (x₁ : Mat n k₁) (x₂ : Mat n k₂) (x₃ : Mat n k₃) (a : Fin n) (j : Fin K) :
    cat3 hK x₁ x₂ x₃ (ix2 a j)
      = if h₁ : j.val < k₁ then x₁ (ix2 a ⟨j.val, h₁⟩)
        else if h₂ : j.val < k₁ + k₂ then x₂ (ix2 a ⟨j.val - k₁, by omega⟩)
        else x₃ (ix2 a ⟨j.val - (k₁ + k₂), by have := j.isLt; omega⟩) := rfl

/-- Rows o, o + 1, … of a weight array, as many as the band has. -/
def band {k : Nat} (o : Nat) (ho : o + k ≤ K) (w : Mat K m) : Mat k m :=
  fun i => w (ix2 ⟨o + (i 0).val, by have := idx2_lt0 i; omega⟩ (i 1))

/-- The first layer in its three-product form: the partial products against the three row bands, then the bias. -/
def aff3 (x₁ : Mat n k₁) (x₂ : Mat n k₂) (x₃ : Mat n k₃) (w₁ : Mat k₁ m) (w₂ : Mat k₂ m) (w₃ : Mat k₃ m)
    (β : Fin m → EReal) : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (x₁ : Mat n k₁) (x₂ : Mat n k₂) (x₃ : Mat n k₃) (w₁ : Mat k₁ m) (w₂ : Mat k₂ m) (w₃ : Mat k₃ m)
    (β : Fin m → EReal) (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

/-- A kernel's first layer written as three matrix products into zero splats, added, plus a one-row bias broadcast down
    the rows: the three-product form. -/
theorem kernel_layer3 {φ₁ φ₂ φ₃ ψ₁ ψ₂ ψ₃ : FTy}
    (d₁ : DotDims ⟨2, ![n, k₁]⟩ ⟨2, ![k₁, m]⟩ ⟨2, ![n, m]⟩) (hd₁ : d₁ = DotDims.plain n k₁ m)
    (d₂ : DotDims ⟨2, ![n, k₂]⟩ ⟨2, ![k₂, m]⟩ ⟨2, ![n, m]⟩) (hd₂ : d₂ = DotDims.plain n k₂ m)
    (d₃ : DotDims ⟨2, ![n, k₃]⟩ ⟨2, ![k₃, m]⟩ ⟨2, ![n, m]⟩) (hd₃ : d₃ = DotDims.plain n k₃ m)
    (x₁ : FVec Ideal ⟨2, ![n, k₁]⟩ φ₁) (w₁ : FVec Ideal ⟨2, ![k₁, m]⟩ ψ₁)
    (x₂ : FVec Ideal ⟨2, ![n, k₂]⟩ φ₂) (w₂ : FVec Ideal ⟨2, ![k₂, m]⟩ ψ₂)
    (x₃ : FVec Ideal ⟨2, ![n, k₃]⟩ φ₃) (w₃ : FVec Ideal ⟨2, ![k₃, m]⟩ ψ₃)
    (brow : FVec Ideal ⟨2, ![1, m]⟩ .f32) (hb : (⟨2, ![1, m]⟩ : Shape).Broadcasts ⟨2, ![n, m]⟩) :
    addf (addf (addf (matmul d₁ none x₁ w₁ (constant ⟨2, ![n, m]⟩ .f32 0x00000000#32))
          (matmul d₂ none x₂ w₂ (constant ⟨2, ![n, m]⟩ .f32 0x00000000#32)))
        (matmul d₃ none x₃ w₃ (constant ⟨2, ![n, m]⟩ .f32 0x00000000#32)))
      (broadcastTo ⟨2, ![n, m]⟩ brow hb)
      = aff3 x₁ x₂ x₃ w₁ w₂ w₃ (fun c => brow (ix2 (0 : Fin 1) c)) := by
  funext i
  obtain ⟨a, c, rfl⟩ : ∃ (a : Fin n) (c : Fin m), i = ix2 a c := ⟨i 0, i 1, eq_ix2 i⟩
  rw [addf_apply, addf_apply, addf_apply, kernel_product d₁ hd₁, kernel_product d₂ hd₂, kernel_product d₃ hd₃,
    broadcastTo_1b_ab_apply]
  rfl

/-- THE LAW: contracting the side-by-side array against a weight array is the sum of the three partial products against
    its row bands. A finite sum split in three; no cancellation, so it holds at the infinities. -/
theorem aff_cat3 (hK : k₁ + k₂ + k₃ = K) (x₁ : Mat n k₁) (x₂ : Mat n k₂) (x₃ : Mat n k₃) (w : Mat K m)
    (β : Fin m → EReal) :
    aff (cat3 hK x₁ x₂ x₃) w β
      = aff3 x₁ x₂ x₃ (band 0 (by omega) w) (band k₁ (by omega) w) (band (k₁ + k₂) (by omega) w) β := by
  subst hK
  funext i
  obtain ⟨a, c, rfl⟩ : ∃ (a : Fin n) (c : Fin m), i = ix2 a c := ⟨i 0, i 1, eq_ix2 i⟩
  rw [aff_apply, aff3_apply, Fin.sum_univ_add, Fin.sum_univ_add]
  congr 1
  congr 1
  · congr 1
    · refine Finset.sum_congr rfl fun j _ => ?_
      have hj : (Fin.castAdd k₃ (Fin.castAdd k₂ j)).val < k₁ := j.isLt
      have e : cat3 rfl x₁ x₂ x₃ (ix2 a (Fin.castAdd k₃ (Fin.castAdd k₂ j))) = x₁ (ix2 a j) := by
        rw [cat3_apply, dif_pos hj]
        rfl
      rw [e]
      refine congrArg (x₁ (ix2 a j) * ·) (congrArg w ?_)
      funext ax
      match ax with
      | ⟨0, _⟩ => exact Fin.ext (by show j.val = 0 + j.val; omega)
      | ⟨1, _⟩ => rfl
    · refine Finset.sum_congr rfl fun j _ => ?_
      have hv : (Fin.castAdd k₃ (Fin.natAdd k₁ j)).val = k₁ + j.val := rfl
      have hn : ¬ (Fin.castAdd k₃ (Fin.natAdd k₁ j)).val < k₁ := by rw [hv]; omega
      have hj : (Fin.castAdd k₃ (Fin.natAdd k₁ j)).val < k₁ + k₂ := by rw [hv]; have := j.isLt; omega
      have e : cat3 rfl x₁ x₂ x₃ (ix2 a (Fin.castAdd k₃ (Fin.natAdd k₁ j))) = x₂ (ix2 a j) := by
        rw [cat3_apply, dif_neg hn, dif_pos hj]
        refine congrArg x₂ ?_
        funext ax
        match ax with
        | ⟨0, _⟩ => rfl
        | ⟨1, _⟩ => exact Fin.ext (by show k₁ + j.val - k₁ = j.val; omega)
      rw [e]
      refine congrArg (x₂ (ix2 a j) * ·) (congrArg w ?_)
      funext ax
      match ax with
      | ⟨0, _⟩ => rfl
      | ⟨1, _⟩ => rfl
  · refine Finset.sum_congr rfl fun j _ => ?_
    have hv : (Fin.natAdd (k₁ + k₂) j).val = k₁ + k₂ + j.val := rfl
    have hn₁ : ¬ (Fin.natAdd (k₁ + k₂) j).val < k₁ := by rw [hv]; omega
    have hn₂ : ¬ (Fin.natAdd (k₁ + k₂) j).val < k₁ + k₂ := by rw [hv]; omega
    have e : cat3 rfl x₁ x₂ x₃ (ix2 a (Fin.natAdd (k₁ + k₂) j)) = x₃ (ix2 a j) := by
      rw [cat3_apply, dif_neg hn₁, dif_neg hn₂]
      refine congrArg x₃ ?_
      funext ax
      match ax with
      | ⟨0, _⟩ => rfl
      | ⟨1, _⟩ => exact Fin.ext (by show k₁ + k₂ + j.val - (k₁ + k₂) = j.val; omega)
    rw [e]
    refine congrArg (x₃ (ix2 a j) * ·) (congrArg w ?_)
    funext ax
    match ax with
    | ⟨0, _⟩ => rfl
    | ⟨1, _⟩ => rfl

end Split

/-! ## A layer's row depends on the same row of its input -/

section Rows
variable {n n' k m : Nat}

/-- Row p of x' is row r of x. -/
def RowEq (x' : Mat n' k) (x : Mat n k) (p : Fin n') (r : Fin n) : Prop := ∀ j : Fin k, x' (ix2 p j) = x (ix2 r j)

theorem RowEq.aff {x' : Mat n' k} {x : Mat n k} {p : Fin n'} {r : Fin n} (h : RowEq x' x p r) (w : Mat k m)
    (β : Fin m → EReal) : RowEq (aff x' w β) (aff x w β) p r := fun c => by
  rw [aff_apply, aff_apply]
  exact congrArg (· + β c) (Finset.sum_congr rfl fun j _ => by rw [h j])

theorem RowEq.relu {x' : Mat n' k} {x : Mat n k} {p : Fin n'} {r : Fin n} (h : RowEq x' x p r) :
    RowEq (relu x') (relu x) p r := fun c => by
  rw [relu_apply, relu_apply, h c]

theorem RowEq.aff3 {k₁ k₂ k₃ : Nat} {x₁' : Mat n' k₁} {x₁ : Mat n k₁} {x₂' : Mat n' k₂} {x₂ : Mat n k₂}
    {x₃' : Mat n' k₃} {x₃ : Mat n k₃} {p : Fin n'} {r : Fin n}
    (h₁ : RowEq x₁' x₁ p r) (h₂ : RowEq x₂' x₂ p r) (h₃ : RowEq x₃' x₃ p r)
    (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.LibCat3.lean ====
/-
  The host's concatenation of three arrays along the columns is the side-by-side array: at column j it reads the first
  array when j < k₁, the second at column j − k₁ when k₁ ≤ j < k₁ + k₂, and the third at column j − k₁ − k₂ otherwise.
-/
import proofs.«400698_j61830349193486_3_alg».proof.Proof.LibDense

noncomputable section

namespace Cert.LibDense

open Idealize.ShloMosaic Idealize.ShloMosaic.ValueIdx

variable {n k₁ k₂ k₃ K : Nat}

theorem concatenate3_eq_cat3 (hK : k₁ + k₂ + k₃ = K) (x₁ : Mat n k₁) (x₂ : Mat n k₂) (x₃ : Mat n k₃)
    (h : Shape.Concatenates
      (([⟨⟨2, ![n, k₁]⟩, x₁⟩, ⟨⟨2, ![n, k₂]⟩, x₂⟩, ⟨⟨2, ![n, k₃]⟩, x₃⟩] : List ((s : Shape) × (s.Idx → EReal))).map (·.1))
      ⟨2, ![n, K]⟩ 1) :
    concatenate ⟨2, ![n, K]⟩ 1 [⟨⟨2, ![n, k₁]⟩, x₁⟩, ⟨⟨2, ![n, k₂]⟩, x₂⟩, ⟨⟨2, ![n, k₃]⟩, x₃⟩] h = cat3 hK x₁ x₂ x₃ := by
  funext i
  obtain ⟨a, j, rfl⟩ : ∃ (a : Fin n) (j : Fin K), i = ix2 a j := ⟨i 0, i 1, eq_ix2 i⟩
  rw [cat3_apply]
  have hjK := j.isLt
  by_cases h₁ : j.val < k₁
  · rw [dif_pos h₁]
    refine concatenate_apply_piece 1 _ h (ix2 a j) 0 (by simp) ⟨2, ![n, k₁]⟩ x₁ rfl rfl 0 rfl (ix2 a ⟨j.val, h₁⟩) ?_ ?_
    · intro b hb
      match b with
      | ⟨0, _⟩ => rfl
      | ⟨1, _⟩ => exact absurd rfl hb
    · show 0 + j.val = j.val; omega
  · rw [dif_neg h₁]
    by_cases h₂ : j.val < k₁ + k₂
    · rw [dif_pos h₂]
      refine concatenate_apply_piece 1 _ h (ix2 a j) 1 (by simp) ⟨2, ![n, k₂]⟩ x₂ rfl rfl k₁ (by simp)
        (ix2 a ⟨j.val - k₁, by omega⟩) ?_ ?_
      · intro b hb
        match b with
        | ⟨0, _⟩ => rfl
        | ⟨1, _⟩ => exact absurd rfl hb
      · show k₁ + (j.val - k₁) = j.val; omega
    · rw [dif_neg h₂]
      refine concatenate_apply_piece 1 _ h (ix2 a j) 2 (by simp) ⟨2, ![n, k₃]⟩ x₃ rfl rfl (k₁ + k₂) (by simp)
        (ix2 a ⟨j.val - (k₁ + k₂), by omega⟩) ?_ ?_
      · intro b hb
        match b with
        | ⟨0, _⟩ => rfl
        | ⟨1, _⟩ => exact absurd rfl hb
      · show k₁ + k₂ + (j.val - (k₁ + k₂)) = j.val; omega

end Cert.LibDense

end
-- ==== Proof.KIHost0.lean ====
/-
  The array of weights the first pallas_call multiplies by: the host writes the three weight matrices side by side
  (1024 rows, 3 × 1024 columns) and changes their format, which at the ideal instance changes nothing. So its column
  h is column h of Wq, its column 1024 + h is column h of Wk, and its column 2048 + h is column h of Wv.
-/
import proofs.«400698_j61830349193486_3_alg».proof.Proof.Gen.KernelIdeal.Launch
import proofs.«400698_j61830349193486_3_alg».proof.Proof.LibNary3
import proofs.«400698_j61830349193486_3_alg».proof.Proof.LibCat3
import Idealize.ShloMosaic.Lib.StableHlo.Run
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen

section Host0

variable (W : Valuation τ sig (Elt Ideal))

/-- The weights array after the host's two operations, and the three weight matrices before them. -/
abbrev wAfter : S1024x3072.Idx → EReal := StableHlo.after (hostOps0 (F := Ideal)) W (Proc.devRef .tc main_v1)
abbrev wqOf : S1024x1024.Idx → EReal := W (Proc.devRef .tc main_arg2)
abbrev wkOf : S1024x1024.Idx → EReal := W (Proc.devRef .tc main_arg3)
abbrev wvOf : S1024x1024.Idx → EReal := W (Proc.devRef .tc main_arg4)

/-- The weights after the host's two operations are the three matrices laid side by side: the concatenation along
    the columns, and a change of format that at the ideal instance is the identity. -/
theorem wAfter_eq_cat3 :
    wAfter W = Cert.LibDense.cat3 (n := 1024) (k₁ := 1024) (k₂ := 1024) (k₃ := 1024) (K := 3072) rfl (wqOf W) (wkOf W) (wvOf W) := by
  show StableHlo.after (hostOps0 (F := Ideal)) W (Proc.devRef .tc main_v1) = _
  simp only [hostOps0, StableHlo.after_cons, StableHlo.after_nil]
  rw [StableHlo.unary_result, Cert.Lib.nary3_result]
  show concatenate S1024x3072 1 [⟨S1024x1024, wqOf W⟩, ⟨S1024x1024, wkOf W⟩, ⟨S1024x1024, wvOf W⟩]
      concatenates_S1024x1024_S1024x1024_S1024x1024_S1024x3072_d1 = _
  exact Cert.LibDense.concatenate3_eq_cat3 (n := 1024) (k₁ := 1024) (k₂ := 1024) (k₃ := 1024) (K := 3072) rfl
    (wqOf W) (wkOf W) (wvOf W) concatenates_S1024x1024_S1024x1024_S1024x1024_S1024x3072_d1

theorem host_w_q (d h : Fin 1024) : wAfter W (ix2 d (⟨h.val, by omega⟩ : Fin 3072)) = wqOf W (ix2 d h) := by
  rw [wAfter_eq_cat3, Cert.LibDense.cat3_apply, dif_pos (show h.val < 1024 from h.isLt)]

theorem host_w_k (d h : Fin 1024) : wAfter W (ix2 d (⟨h.val + 1024, by omega⟩ : Fin 3072)) = wkOf W (ix2 d h) := by
  rw [wAfter_eq_cat3, Cert.LibDense.cat3_apply, dif_neg (show ¬ h.val + 1024 < 1024 by omega),
    dif_pos (show h.val + 1024 < 1024 + 1024 by have := h.isLt; omega)]
  exact congrArg (wkOf W) (congrArg (ix2 d) (Fin.ext (by show h.val + 1024 - 1024 = h.val; omega)))

theorem host_w_v (d h : Fin 1024) : wAfter W (ix2 d (⟨h.val + 2048, by omega⟩ : Fin 3072)) = wvOf W (ix2 d h) := by
  rw [wAfter_eq_cat3, Cert.LibDense.cat3_apply, dif_neg (show ¬ h.val + 2048 < 1024 by omega),
    dif_neg (show ¬ h.val + 2048 < 1024 + 1024 by omega)]
  exact congrArg (wvOf W) (congrArg (ix2 d) (Fin.ext (by show h.val + 2048 - (1024 + 1024) = h.val; omega)))

end Host0

end Cert.KernelIdeal.Hand

end
-- ==== Proof.KIValue.lean ====
/-
  The idealized kernel program's result array as the specification's function of the five arguments, for real-valued
  arguments: the first call leaves the three projections x·Wq, x·Wk, x·Wv (its weight operand is the three weights
  side by side), the second call reads them and the mask as launched and leaves the attention of those projections.
-/
import proofs.«400698_j61830349193486_3_alg».proof.Proof.Gen.KernelIdeal.Launch
import proofs.«400698_j61830349193486_3_alg».proof.Proof.Gen.KernelIdeal.Skeleton
import proofs.«400698_j61830349193486_3_alg».proof.Proof.Gen.KernelIdeal.Points
import proofs.«400698_j61830349193486_3_alg».proof.Proof.KIRun
import proofs.«400698_j61830349193486_3_alg».proof.Proof.KIVal0
import proofs.«400698_j61830349193486_3_alg».proof.Proof.KIVal1
import proofs.«400698_j61830349193486_3_alg».proof.Proof.KIHost0
import proofs.«400698_j61830349193486_3_alg».proof.Proof.Spec
import proofs.«400698_j61830349193486_3_alg».proof.Proof.LibOnlineSoftmax
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx Cert.Spec Cert.Lib.OnlineSoftmax

section Value

variable (m : (ℓ : Loc nD τ sig) → Buf (Elt Ideal) ℓ) (ρ : Dev nD → PrngReg)

/-- The five arguments as launched, at their literal types. -/
abbrev aX (c : Dev nD) : S4096x1024.Idx → EReal := m ((c : Thread nD τ).loc main_arg0)
abbrev aM (c : Dev nD) : S4096x4096.Idx → EReal := m ((c : Thread nD τ).loc main_arg1)
abbrev aWq (c : Dev nD) : S1024x1024.Idx → EReal := m ((c : Thread nD τ).loc main_arg2)
abbrev aWk (c : Dev nD) : S1024x1024.Idx → EReal := m ((c : Thread nD τ).loc main_arg3)
abbrev aWv (c : Dev nD) : S1024x1024.Idx → EReal := m ((c : Thread nD τ).loc main_arg4)

/-- A projection of real matrices is real. -/
theorem proj_real {x : Mat 4096 1024} {W : Mat 1024 1024} (hx : ∀ i d, IsReal (x i d)) (hW : ∀ d h, IsReal (W d h)) (i : Fin 4096) (h : Fin 1024) :
    IsReal (proj x W i h) :=
  IsReal.sum _ _ fun d _ => IsReal.mul (hx i d) (hW d h)

/-- The x rows the first call finds are the launched ones. -/
theorem xArr_eq (c : Dev nD) : xArr (V1 m ρ) c = aX m c := W1_main_arg0 m ρ c

/-- The first call's q result is the projection by Wq. -/
theorem q_eq (c : Dev nD) : Cert.Spec.mat (qArr (V2 m ρ) c) = proj (Cert.Spec.mat (aX m c)) (Cert.Spec.mat (aWq m c)) := by
  funext p h
  show qArr (V2 m ρ) c (ix2 p h) = _
  have e : qArr (V2 m ρ) c = qOut (V1 m ρ) c := W2_arr m ρ c 2
  rw [e, final0_2, xArr_eq]
  unfold proj Cert.Spec.mat
  refine Finset.sum_congr rfl fun d _ => ?_
  congr 1
  exact host_w_q (W0 m ρ c) d h

theorem k_eq (c : Dev nD) : Cert.Spec.mat (kArr (V2 m ρ) c) = proj (Cert.Spec.mat (aX m c)) (Cert.Spec.mat (aWk m c)) := by
  funext p h
  show kArr (V2 m ρ) c (ix2 p h) = _
  have e : kArr (V2 m ρ) c = kOut (V1 m ρ) c := W2_arr m ρ c 3
  rw [e, final0_3, xArr_eq]
  unfold proj Cert.Spec.mat
  refine Finset.sum_congr rfl fun d _ => ?_
  congr 1
  exact host_w_k (W0 m ρ c) d h

set_option maxHeartbeats 2000000 in
theorem v_eq (c : Dev nD) : Cert.Spec.mat (vArr (V2 m ρ) c) = proj (Cert.Spec.mat (aX m c)) (Cert.Spec.mat (aWv m c)) := by
  funext p h
  show vArr (V2 m ρ) c (ix2 p h) = _
  have e : vArr (V2 m ρ) c = vOut (V1 m ρ) c := W2_arr m ρ c 4
  rw [e, final0_4, xArr_eq]
  unfold proj Cert.Spec.mat
  refine Finset.sum_congr rfl fun d _ => ?_
  congr 1
  exact host_w_v (W0 m ρ c) d h

/-- The mask the second call finds is the launched one. -/
theorem mask_eq (c : Dev nD) : mArr (V2 m ρ) c = aM m c := W2_main_arg1 m ρ c

/-- An array whose matrix reading is real entry by entry has real entries. -/
theorem allReal_of_mat {a b : ℕ} (A : (⟨2, ![a, b]⟩ : Shape).Idx → EReal) (h : ∀ i j, IsReal (Cert.Spec.mat A i j)) : AllReal A := by
  intro i
  obtain ⟨p, q, rfl⟩ : ∃ (p : Fin a) (q : Fin b), i = ix2 p q := ⟨i 0, i 1, eq_ix2 i⟩
  exact h p q

set_option maxHeartbeats 2000000 in
/-- THE VALUE. For real-valued arguments the result array the run leaves is the specification's function of them. -/
theorem kernel_value (c : Dev nD) (hX : AllReal (aX m c)) (hM : AllReal (aM m c)) (hWq : AllReal (aWq m c))
    (hWk : AllReal (aWk m c)) (hWv : AllReal (aWv m c)) :
    (W3 m ρ c (Proc.devRef .tc main_v3) : S4096x1024.Idx → EReal) = Cert.Spec.result (aX m c) (aM m c) (aWq m c) (aWk m c) (aWv m c) := by
  have hx : ∀ i d, IsReal (Cert.Spec.mat (aX m c) i d) := fun i d => hX _
  have hwq : ∀ d h, IsReal (Cert.Spec.mat (aWq m c) d h) := fun d h => hWq _
  have hwk : ∀ d h, IsReal (Cert.Spec.mat (aWk m c) d h) := fun d h => hWk _
  have hwv : ∀ d h, IsReal (Cert.Spec.mat (aWv m c) d h) := fun d h => hWv _
  have hq : AllReal (qArr (V2 m ρ) c) := allReal_of_mat _ (by rw [q_eq]; exact proj_real hx hwq)
  have hk : AllReal (kArr (V2 m ρ) c) := allReal_of_mat _ (by rw [k_eq]; exact proj_real hx hwk)
  have hv : AllReal (vArr (V2 m ρ) c) := allReal_of_mat _ (by rw [v_eq]; exact proj_real hx hwv)
  have hm : AllReal (mArr (V2 m ρ) c) := by rw [mask_eq]; exact hM
  funext i
  obtain ⟨p, j, rfl⟩ : ∃ (p : Fin 4096) (j : Fin 1024), i = ix2 p j := ⟨i 0, i 1, eq_ix2 i⟩
  have e : (W3 m ρ c (Proc.devRef .tc main_v3) : S4096x1024.Idx → EReal) = oOut (V2 m ρ) c := W3_arr m ρ c 4
  rw [e, final1 (V2 m ρ) c hq hk hv hm p j, q_eq, k_eq, v_eq, mask_eq, Cert.Spec.result_ix2]
  rfl

end Value

end Cert.KernelIdeal.Hand

end
-- ==== Proof.RefG.lean ====
/-
  The reference's result is the specification's function of its five arguments: its three projections are the
  specification's, its quotient by the square root of 1024 is the product with 1/32, its row maximum is the supremum of
  the row, and its normalised weights applied to the value rows are the specification's sum.
-/
import proofs.«400698_j61830349193486_3_alg».proof.Proof.Gen.ReferenceIdeal.Run
import proofs.«400698_j61830349193486_3_alg».proof.Proof.Gen.ReferenceIdeal.Read
import proofs.«400698_j61830349193486_3_alg».proof.Proof.Spec
import proofs.«400698_j61830349193486_3_alg».proof.Proof.LibOnlineSoftmax
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Spec

/-! ## The three constants -/

/-- The word 0x44800000 is 1024. -/
theorem word_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-- The word 0xFF800000 is −∞. -/
theorem word_bot : Ideal.ofBits .f32 0xFF800000#32 = ⊥ := by simp [Ideal.ofBits, Ideal.ieee]

/-! ## The projections -/

section
variable (x0 : (⟨S4096x1024, .f32⟩ : BufTy).Contents (Elt Ideal)) (x1 : (⟨S4096x4096, .f32⟩ : BufTy).Contents (Elt Ideal))
  (x2 x3 x4 : (⟨S1024x1024, .f32⟩ : BufTy).Contents (Elt Ideal))

/-- x · Wq at (p, h). -/
theorem v0_ix (p : Fin 4096) (h : Fin 1024) :
    val_main_v0 (F := Ideal) x0 x2 (ix2 p h) = proj (mat x0) (mat x2) p h := by
  rw [val_main_v0_apply]
  unfold proj mat
  refine Finset.sum_congr rfl fun d _ => ?_
  have el : lidx_main_v0 (ix2 p h) d = ix2 p d :=
    funext fun a => Fin.ext (by match a with | ⟨0, _⟩ => rfl | ⟨1, _⟩ => rfl)
  have er : ridx_main_v0 (ix2 p h) d = ix2 d h :=
    funext fun a => Fin.ext (by match a with | ⟨0, _⟩ => rfl | ⟨1, _⟩ => rfl)
  rw [el, er]

/-- x · Wk at (p, h). -/
theorem v1_ix (p : Fin 4096) (h : Fin 1024) :
    val_main_v1 (F := Ideal) x0 x3 (ix2 p h) = proj (mat x0) (mat x3) p h := v0_ix x0 x3 p h

/-- x · Wv at (p, h). -/
theorem v2_ix (p : Fin 4096) (h : Fin 1024) :
    val_main_v2 (F := Ideal) x0 x4 (ix2 p h) = proj (mat x0) (mat x4) p h := v0_ix x0 x4 p h

end

/-! ## The scores -/

section
variable (x0 : (⟨S4096x1024, .f32⟩ : BufTy).Contents (Elt Ideal)) (x1 : (⟨S4096x4096, .f32⟩ : BufTy).Contents (Elt Ideal))
  (x2 x3 x4 : (⟨S1024x1024, .f32⟩ : BufTy).Contents (Elt Ideal))

/-- The specification's scores of these arguments. -/
abbrev sc : Mat 4096 4096 := scoreOf (proj (mat x0) (mat x2)) (proj (mat x0) (mat x3)) (mat x1)

/-- q · kᵀ at (i, j): the transpose reads k at (j, h). -/
theorem v4_ix (i j : Fin 4096) :
    val_main_v4 (F := Ideal) x0 x2 x3 (ix2 i j)
      = ∑ h : Fin 1024, proj (mat x0) (mat x2) i h * proj (mat x0) (mat x3) j h := by
  rw [val_main_v4_apply]
  refine Finset.sum_congr rfl fun h _ => ?_
  rw [val_main_v3_apply]
  have el : lidx_main_v4 (ix2 i j) h = ix2 i h :=
    funext fun a => Fin.ext (by match a with | ⟨0, _⟩ => rfl | ⟨1, _⟩ => rfl)
  have er : idx_main_v3 (ridx_main_v4 (ix2 i j) h) = ix2 j h :=
    funext fun a => Fin.ext (by match a with | ⟨0, _⟩ => rfl | ⟨1, _⟩ => rfl)
  rw [el, er, v0_ix, v1_ix]

/-- The quotient by the square root of 1024 is the product with 1/32. -/
theorem v7_ix (i j : Fin 4096) :
    val_main_v7 (F := Ideal) x0 x2 x3 (ix2 i j)
      = (∑ h : Fin 1024, proj (mat x0) (mat x2) i h * proj (mat x0) (mat x3) j h) * ((1 / 32 : ℝ) : EReal) := by
  rw [val_main_v7_apply, val_main_v6_apply, val_main_v5_apply, val_main_cst_apply, v4_ix,
    Ideal.hostDivf_def, Ideal.hostUnary_sqrt_def, Ideal.ofBits_def, word_1024, sqrt_1024,
    Ideal.div_coe (by norm_num)]

/-- The scores: the scaled products plus the mask times its word. -/
theorem v10_ix (i j : Fin 4096) :
    val_main_v10 (F := Ideal) x0 x1 x2 x3 (ix2 i j) = sc x0 x1 x2 x3 i j := by
  rw [val_main_v10_apply, val_main_v9_apply, val_main_v8_apply, val_main_cst_0_apply, v7_ix,
    Ideal.addf_def, Ideal.mulf_def, Ideal.ofBits_def]
  rfl

end

/-! ## The row maximum -/

section
variable (x0 : (⟨S4096x1024, .f32⟩ : BufTy).Contents (Elt Ideal)) (x1 : (⟨S4096x4096, .f32⟩ : BufTy).Contents (Elt Ideal))
  (x2 x3 x4 : (⟨S1024x1024, .f32⟩ : BufTy).Contents (Elt Ideal))

/-- Row i with column k put back is (i, k). -/
theorem lift_ix2 (h : S4096x4096.Reduces [1] S4096) (i : Fin 4096) (k : Fin (S4096x4096.size 1)) :
    h.lift (ix1 i) k = ix2 i (⟨k.val, k.isLt⟩ : Fin 4096) := by
  funext c; apply Fin.ext
  fin_cases c <;> rfl

/-- The reduce with a maximum body from −∞ over the columns is the supremum of the row. -/
theorem v11_ix (i : Fin 4096) :
    val_main_v11 (F := Ideal) x0 x1 x2 x3 (ix1 i) = rowMax (sc x0 x1 x2 x3) i := by
  have hr : S4096x4096.Reduces [1] S4096 := by decide
  unfold val_main_v11
  rw [Host.reduce_eq_fold_single FloatOps.maximumf _ _ Facts₀.reducesTo_S4096x4096_S4096_d1 hr Facts₀.h_S_]
  have hf : (val_main_v10 (F := Ideal) x0 x1 x2 x3 ∘ hr.lift (ix1 i)) = fun k : Fin 4096 => sc x0 x1 x2 x3 i k :=
    funext fun k => by
      show val_main_v10 (F := Ideal) x0 x1 x2 x3 (hr.lift (ix1 i) k) = _
      rw [lift_ix2 hr i k, v10_ix]
      rfl
  rw [hf, val_main_cst_1_apply, Ideal.ofBits_def, word_bot]
  show (Finset.univ : Finset (Fin 4096)).fold max ⊥ (fun k : Fin 4096 => sc x0 x1 x2 x3 i k) = _
  rw [Cert.Lib.OnlineSoftmax.fold_max_bot_eq_sup]
  rfl

/-- The maximum with the broadcast −∞ changes nothing. -/
theorem v13_ix (i : Fin 4096) :
    val_main_v13 (F := Ideal) x0 x1 x2 x3 (ix1 i) = rowMax (sc x0 x1 x2 x3) i := by
  rw [val_main_v13_apply, val_main_v12_apply, val_main_cst_2_apply, v11_ix, Ideal.maximumf_def, Ideal.ofBits_def,
    word_bot]
  exact max_eq_right bot_le

end

/-! ## The weights, their sum, and the result -/

section
variable (x0 : (⟨S4096x1024, .f32⟩ : BufTy).Contents (Elt Ideal)) (x1 : (⟨S4096x4096, .f32⟩ : BufTy).Contents (Elt Ideal))
  (x2 x3 x4 : (⟨S1024x1024, .f32⟩ : BufTy).Contents (Elt Ideal))

/-- The row maximum broadcast along the row. -/
theorem v15_ix (i j : Fin 4096) :
    val_main_v15 (F := Ideal) x0 x1 x2 x3 (ix2 i j) = rowMax (sc x0 x1 x2 x3) i := by
  rw [val_main_v15_apply, val_main_v14_apply]
  have e : idx_main_v14 (idx_main_v15 (ix2 i j)) = ix1 i :=
    funext fun a => Fin.ext (by match a with | ⟨0, _⟩ => rfl)
  rw [e, v13_ix]

/-- The weight: the exponential of the score less its row's maximum. -/
theorem v17_ix (i j : Fin 4096) :
    val_main_v17 (F := Ideal) x0 x1 x2 x3 (ix2 i j) = wgt (sc x0 x1 x2 x3) i j := by
  rw [val_main_v17_apply, val_main_v16_apply, v10_ix, v15_ix, Ideal.hostUnary_exp_def, Ideal.subf_def]
  rfl

/-- The sum of a row's weights, from the initial value 0. -/
theorem v18_ix (i : Fin 4096) :
    val_main_v18 (F := Ideal) x0 x1 x2 x3 (ix1 i) = wsum (sc x0 x1 x2 x3) i := by
  rw [val_main_v18_apply, val_main_cst_3_apply, Ideal.ofBits_def, Ideal.ofBits_zero_f32, zero_add]
  unfold wsum
  refine Finset.sum_congr rfl fun k _ => ?_
  have e : idx_main_v18 (ix1 i) k = ix2 i k :=
    funext fun a => Fin.ext (by match a with | ⟨0, _⟩ => rfl | ⟨1, _⟩ => rfl)
  rw [e, v17_ix]

/-- The normalised weight. -/
theorem v21_ix (i j : Fin 4096) :
    val_main_v21 (F := Ideal) x0 x1 x2 x3 (ix2 i j)
      = Ideal.div (wgt (sc x0 x1 x2 x3) i j) (wsum (sc x0 x1 x2 x3) i) := by
  rw [val_main_v21_apply, val_main_v20_apply, val_main_v19_apply, v17_ix]
  have e : idx_main_v19 (idx_main_v20 (ix2 i j)) = ix1 i :=
    funext fun a => Fin.ext (by match a with | ⟨0, _⟩ => rfl)
  rw [e, v18_ix, Ideal.hostDivf_def]

end

theorem ref_eq (x0 : (⟨S4096x1024, .f32⟩ : BufTy).Contents (Elt Ideal)) (x1 : (⟨S4096x4096, .f32⟩ : BufTy).Contents (Elt Ideal))
    (x2 x3 x4 : (⟨S1024x1024, .f32⟩ : BufTy).Contents (Elt Ideal)) :
    Cert.ReferenceIdeal.Read.val_main_v22 (F := Ideal) x0 x1 x2 x3 x4 = Cert.Spec.result x0 x1 x2 x3 x4 := by
  funext i
  obtain ⟨p, c, rfl⟩ : ∃ (p : Fin 4096) (c : Fin 1024), i = ix2 p c := ⟨i 0, i 1, eq_ix2 i⟩
  rw [Cert.Spec.result_ix2, val_main_v22_apply]
  show _ = ∑ j : Fin 4096, Ideal.div (wgt (sc x0 x1 x2 x3) p j) (wsum (sc x0 x1 x2 x3) p) * proj (mat x0) (mat x4) j c
  refine Finset.sum_congr rfl fun j _ => ?_
  have el : lidx_main_v22 (ix2 p c) j = ix2 p j :=
    funext fun a => Fin.ext (by match a with | ⟨0, _⟩ => rfl | ⟨1, _⟩ => rfl)
  have er : ridx_main_v22 (ix2 p c) j = ix2 j c :=
    funext fun a => Fin.ext (by match a with | ⟨0, _⟩ => rfl | ⟨1, _⟩ => rfl)
  rw [el, er, v21_ix, v2_ix]

end Cert.ReferenceIdeal.RefValue

end
-- ==== Proof.Finite.lean ====
/-
  The precondition says every entry of every argument is smaller in absolute value than +∞; at the ideal instance,
  where an entry is an extended real, that makes every entry a real number.
-/
import proofs.«400698_j61830349193486_3_alg».proof.Pre_finite_inputs
import proofs.«400698_j61830349193486_3_alg».proof.Proof.Gen.Pre_finite_inputs
import proofs.«400698_j61830349193486_3_alg».proof.Proof.Spec
import Idealize.ShloMosaic.Lib.ReduceAll
import Idealize.ShloMosaic.PureOps.Ideal

noncomputable section

namespace Cert.Finite

open Idealize.ShloMosaic Cert.Pre_finite_inputs

/-- The shape of a scalar has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (−x) is strictly below +∞ is a real number:
    at ⊤ the maximum is ⊤, at ⊥ it is −⊥ = ⊤, and neither is below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One argument's clause, at any shape: if the conjunction over all entries of |x i| < +∞ (the entries of |x|
    compared with the broadcast word of +∞, folded by "and" into a scalar) is true, every entry of x is real. -/
theorem allReal_of_all {S : Shape} {axes : List (Fin S.rank)} (x : FVec Ideal S .f32)
    (hb : S_.BroadcastsInDim S (![] : Fin 0 → Fin S.rank)) (hr : S.ReducesTo axes S_) (hu : 0 < S_.numel)
    (init : IVec S_ 1)
    (e : Host.reduce IntOp.andi
          (cmpf .olt (Host.absf x) (broadcastInDim S ![] hb (constant (F := Ideal) S_ .f32 0x7F800000#32)))
          init hr hu ValueIdx.ix0 = 1#1) :
    Cert.Spec.AllReal (S := S) x := by
  intro i
  have h1 := Host.reduce_andi_all _ init hr hu ValueIdx.ix0 e i
  -- entry i of the compared array: the order's comparison of max (x i) (−x i) with the word of +∞
  change Ideal.cmp .olt (max (x i) (-(x i))) (Ideal.ofBits .f32 0x7F800000#32) = 1#1 at h1
  rw [inf_word] at h1
  refine real_of_abs_lt_top (x i) ?_
  by_contra hn
  simp [Ideal.cmp, hn] at h1

theorem allReal_of_fn (x0 : FVec Ideal S4096x1024 .f32) (x1 : FVec Ideal S4096x4096 .f32) (x2 x3 x4 : FVec Ideal S1024x1024 .f32)
    (h : Cert.Pre_finite_inputs.fn (F := Ideal) x0 x1 x2 x3 x4 = fun _ => 1#1) :
    Cert.Spec.AllReal (S := S4096x1024) x0 ∧ Cert.Spec.AllReal (S := S4096x4096) x1 ∧ Cert.Spec.AllReal (S := S1024x1024) x2
      ∧ Cert.Spec.AllReal (S := S1024x1024) x3 ∧ Cert.Spec.AllReal (S := S1024x1024) x4 := by
  -- the scalar result at its one index, as the "and" of the five clauses
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨allReal_of_all x0 _ _ _ _ e0, allReal_of_all x1 _ _ _ _ e1, allReal_of_all x2 _ _ _ _ e2,
    allReal_of_all x3 _ _ _ _ e3, allReal_of_all x4 _ _ _ _ e4⟩

end Cert.Finite

end
-- ==== Proof.lean ====
/-
  Scaled dot-product attention of 4096 positions with an additive mask: a Pallas program of two kernels against its jnp
  reference, over the extended reals.

  The kernel program projects x onto [Wq | Wk | Wv] in one call (blocks of 512 rows), then runs streaming attention in a
  second call: for each block of 1024 query rows it takes the keys and values in eight blocks of 512, keeping per row a
  running maximum, a running sum of weights and a running weighted sum of value rows, and at the eighth block divides
  the weighted sum by the sum of weights floored at 10⁻²⁰. The running maximum starts at a large negative number that
  stands for −∞ and is named so; with that reading the maximum after eight blocks is the row's largest score, the sum
  of weights is at least 1, the floor never binds, and the quotient is the softmax-weighted sum of the value rows —
  the reference's softmax(q·kᵀ/√1024 + mask·(−10⁹))·v, since √1024 = 32 and the streaming sums regroup the same
  finite sums of real numbers. Finiteness of the arguments is what makes every score a real number.

  The three frames: the two kernel programs run through their host stretch and two calls with every argument array left
  as launched; the reference is a straight line of host operations. The idealization names two constants.
-/
import proofs.«400698_j61830349193486_3_alg».proof.Defs
import proofs.«400698_j61830349193486_3_alg».proof.Proof.Gen.Kernel
import proofs.«400698_j61830349193486_3_alg».proof.Proof.Gen.KernelIdeal
import proofs.«400698_j61830349193486_3_alg».proof.Proof.Gen.ReferenceIdeal
import proofs.«400698_j61830349193486_3_alg».proof.Proof.Gen.Pre_finite_inputs
import proofs.«400698_j61830349193486_3_alg».proof.Proof.Gen.ReferenceIdeal.Run
import proofs.«400698_j61830349193486_3_alg».proof.Proof.Gen.ReferenceIdeal.Read
import proofs.«400698_j61830349193486_3_alg».proof.Proof.KRun
import proofs.«400698_j61830349193486_3_alg».proof.Proof.KIRun
import proofs.«400698_j61830349193486_3_alg».proof.Proof.KIValue
import proofs.«400698_j61830349193486_3_alg».proof.Proof.RefG
import proofs.«400698_j61830349193486_3_alg».proof.Proof.Finite
import proofs.«400698_j61830349193486_3_alg».proof.Proof.Spec
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Hand.frame m ρ

/-- So does the idealized one. -/
theorem frame_pi : Cert.frame_KernelIdeal := fun m ρ _ => Cert.KernelIdeal.Hand.frame m ρ

/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The two named constants: the running maximum's starting value denotes −∞, the floor denotes 10⁻²⁰. -/
theorem preserves : Cert.preserves_Kernel_KernelIdeal :=
  ⟨IdealRules.named_const.statement Cert.KernelIdeal.κ "neg_big" .f32 0xFF333332#32 ⊥ rfl,
   IdealRules.named_const.statement Cert.KernelIdeal.κ "inv_100000000000000000000" .f32 0x1E3CE508#32
     ((1 / 100000000000000000000 : ℝ) : EReal) rfl⟩

/-- Both idealized programs end with the specification's function of the (finite, agreeing) arguments. -/
theorem algebraic : Cert.algebraic_KernelIdeal_ReferenceIdeal := by
  intro m ρ m' ρ' hpre hagree
  refine ⟨fun c => Cert.Spec.result (Cert.KernelIdeal.Hand.aX m c) (Cert.KernelIdeal.Hand.aM m c) (Cert.KernelIdeal.Hand.aWq m c)
    (Cert.KernelIdeal.Hand.aWk m c) (Cert.KernelIdeal.Hand.aWv m c), ?_, ?_⟩
  · refine (θ_run Cert.KernelIdeal.defs _ _).mono (fun r h c => ?_) (Cert.KernelIdeal.Hand.run_all (F := Ideal) m ρ)
    obtain ⟨h0, h1, h2, h3, h4⟩ := Cert.Finite.allReal_of_fn _ _ _ _ _ (hpre c)
    refine ⟨?_, ?_, ?_, ?_, ?_, ?_⟩
    · exact (h c _ (Cert.KernelIdeal.Hand.mem_uc Cert.KernelIdeal.main_v3 (by decide))).trans
        (Cert.KernelIdeal.Hand.kernel_value m ρ c h0 h1 h2 h3 h4)
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
    · exact (h c _ (Cert.KernelIdeal.Hand.mem_uc Cert.KernelIdeal.main_arg3 (by decide))).trans (Cert.KernelIdeal.Hand.W3_main_arg3 m ρ c)
    · exact (h c _ (Cert.KernelIdeal.Hand.mem_uc Cert.KernelIdeal.main_arg4 (by decide))).trans (Cert.KernelIdeal.Hand.W3_main_arg4 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v22_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
